-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x512 : Shape := ⟨2, ![1024, 512]⟩

abbrev nBuf : Space → Nat
  | .hbm => 13
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x4096x1024, .bf16⟩
  | .hbm, ⟨11, _⟩ => ⟨S4x1024x1024, .bf16⟩
  | .hbm, ⟨12, _⟩ => ⟨S4x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_19 : BitVec 32 := 0#32
  let v29 : BitVec 1 := Scalar.cmpi .ne v28 c0_i32_19
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  transposes_S512x1024_p1_0_S1024x512 : S512x1024.Transposes [1, 0] S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S512x1024_S1024x1024_S512x1024_1_0_0_1_n_n_wf : DotDims.WF S512x1024 S1024x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .bf16 = 32 ∨ (Rect.block (s := S4x4096x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x4096x1024.size a
  hwx0_4 : ∀ i : grid0.Coords, EltTy.bits .bf16 = 32 ∨ (Rect.block (s := S4x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x1024x1024.size a
  hwx0_5 : ∀ i : grid0.Coords, EltTy.bits .bf16 = 32 ∨ (Rect.block (s := S4x1024x1024) S1x1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .bf16 = 32 ∨ (Rect.block (s := S4x1024x1024) S1x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .f32 = 32 ∨ (Rect.block (s := S4x4096x1024) S1x512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v5_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x4096, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KbR0Base.lean ====
/-
  Region 0 (the projection-and-accumulate kernel, grid 4 × 8: batch × sequence tile): what its three control cases
  share. The window blocks read off the arrays as the region finds them; each input window's staging buffer holds
  its block at every point; the two branch conditions of the body in closed form over the grid (the accumulator is
  reset at the first tile of a batch, the summed matrix is stored at the last); where the second output window is idle.
-/
import proofs.«127309_j71511205478733_1_alg».proof.Proof.Gen.Kernel.Launch
import proofs.«127309_j71511205478733_1_alg».proof.Proof.Gen.Kernel.Skeleton
import proofs.«127309_j71511205478733_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is the entry contents and whose body leaves the block in place. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, over the grid -/

/-- "This is the first sequence tile of its batch": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last sequence tile of its batch": the summed matrix is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a batch's last tile the matrix output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The staging memrefs at a point, and the accumulator -/

abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S1024x1024 .f32 := Memref.whole cc0_scratch0
abbrev VS0 : View sig .tc .vmem S1024x1024 .f32 := scM0.view
/-- One staging buffer of each output window, through which its contents are stated. -/
abbrev VO0_4 : View sig .tc .vmem S1x512x1024 .bf16 := (Memref.whole cc0_stg4_0 : Memref sig .tc .vmem S1x512x1024 .bf16).view
abbrev VO0_5 : View sig .tc .vmem S1x1024x1024 .bf16 := (Memref.whole cc0_stg5_0 : Memref sig .tc .vmem S1x1024x1024 .bf16).view

/-- The class invariant of region 0 with the accumulator split out of the scoped rest. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

end Cert.Kernel.Hand

end
-- ==== Proof.KbR0RunA.lean ====
/-
  Region 0's body at the first sequence tile of a batch (reset, then accumulate; the matrix output untouched): its
  run on whole staging buffers, the pieces each written buffer ends with found by the run itself.
-/
import proofs.«127309_j71511205478733_1_alg».proof.Proof.KbR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first tile: the inputs at their contents, the row-block output and the accumulator at anything, the matrix
    output at contents handed back untouched; the body runs to the continuation with the row-block output and the
    accumulator at their pieces written. -/
noncomputable def kernelRun0_A (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .bf16) (x1 : Vec F S1024x1024 .bf16) (x2 : Vec F S1024x1024 .bf16) (x3 : Vec F S1024x1024 .bf16) :
    Σ' (L4 : List (View.Piece (Elt F) S1x512x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__qkv_and_m_kernel i arg2 harg2 arg3 harg3 arg4 harg4 arg5 harg5 arg6 harg6 arg7 harg7 arg8 harg8) K } := by
  refine ⟨?_, ?_, fun xi5 E K => ?run⟩
  case run =>
    simp only [cc0__qkv_and_m_kernel_eq_skeleton]; unfold cc0__qkv_and_m_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.Kernel.Hand

end
-- ==== Proof.KbR0RunB.lean ====
/-
  Region 0's body at a middle sequence tile of a batch (accumulate only): its run on whole staging buffers.
-/
import proofs.«127309_j71511205478733_1_alg».proof.Proof.KbR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle tile: the accumulator at what the tile before left; the matrix output handed back untouched. -/
noncomputable def kernelRun0_B (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .bf16) (x1 : Vec F S1024x1024 .bf16) (x2 : Vec F S1024x1024 .bf16) (x3 : Vec F S1024x1024 .bf16) (xs : Vec F S1024x1024 .f32) :
    Σ' (L4 : List (View.Piece (Elt F) S1x512x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__qkv_and_m_kernel i arg2 harg2 arg3 harg3 arg4 harg4 arg5 harg5 arg6 harg6 arg7 harg7 arg8 harg8) K } := by
  refine ⟨?_, ?_, fun xi5 E K => ?run⟩
  case run =>
    simp only [cc0__qkv_and_m_kernel_eq_skeleton]; unfold cc0__qkv_and_m_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.Kernel.Hand

end
-- ==== Proof.KbR0RunC.lean ====
/-
  Region 0's body at the last sequence tile of a batch (accumulate, then store the summed matrix): its run.
-/
import proofs.«127309_j71511205478733_1_alg».proof.Proof.KbR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last tile: the accumulator at what the tile before left; the matrix output at anything, left at its pieces. -/
noncomputable def kernelRun0_C (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .bf16) (x1 : Vec F S1024x1024 .bf16) (x2 : Vec F S1024x1024 .bf16) (x3 : Vec F S1024x1024 .bf16) (xs : Vec F S1024x1024 .f32) :
    Σ' (L4 : List (View.Piece (Elt F) S1x512x1024 .bf16)) (L5 : List (View.Piece (Elt F) S1x1024x1024 .bf16)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__qkv_and_m_kernel i arg2 harg2 arg3 harg3 arg4 harg4 arg5 harg5 arg6 harg6 arg7 harg7 arg8 harg8) K } := by
  refine ⟨?_, ?_, ?_, fun E K => ?run⟩
  case run =>
    simp only [cc0__qkv_and_m_kernel_eq_skeleton]; unfold cc0__qkv_and_m_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.Kernel.Hand

end
-- ==== Proof.KbR0.lean ====
/-
  Region 0, assembled: what each control case leaves in the row-block output, the matrix output and the accumulator
  (the pieces its run found, read back); what the three hold after every point of the grid, by recursion on the point
  (the accumulator at a tile is the case's result over what the tile before left); the invariant carrying the
  accumulator between points; the proof data; the body obligation; and the invariant's two ends.
-/
import proofs.«127309_j71511205478733_1_alg».proof.Proof.KbR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases
variable (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (x0 : Vec F S1x512x1024 .bf16) (x1 : Vec F S1024x1024 .bf16) (x2 : Vec F S1024x1024 .bf16) (x3 : Vec F S1024x1024 .bf16)

theorem cover0_A_4 (hc0 : cond0_0 i) (hc1 : ¬cond0_1 i) (y : S1x512x1024.Idx) :
    ∃ pc ∈ (kernelRun0_A (F := F) c i arg2 harg2 arg3 harg3 arg4 harg4 arg5 harg5 arg6 harg6 arg7 harg7 arg8 harg8 hc0 hc1 x0 x1 x2 x3).1, y ∈ pc.1.set :=
  View.cover_of_tiledL (kernelRun0_A (F := F) c i arg2 harg2 arg3 harg3 arg4 harg4 arg5 harg5 arg6 harg6 arg7 harg7 arg8 harg8 hc0 hc1 x0 x1 x2 x3).1 S1x512x1024.size (by sl_kernel_rfl) y
theorem scover0_A (hc0 : cond0_0 i) (hc1 : ¬cond0_1 i) (y : S1024x1024.Idx) :
    ∃ pc ∈ (kernelRun0_A (F := F) c i arg2 harg2 arg3 harg3 arg4 harg4 arg5 harg5 arg6 harg6 arg7 harg7 arg8 harg8 hc0 hc1 x0 x1 x2 x3).2.1, y ∈ pc.1.set :=
  View.cover_of_tiledL (kernelRun0_A (F := F) c i arg2 harg2 arg3 harg3 arg4 harg4 arg5 harg5 arg6 harg6 arg7 harg7 arg8 harg8 hc0 hc1 x0 x1 x2 x3).2.1 S1024x1024.size (by sl_kernel_rfl) y
def out0_A_4 (hc0 : cond0_0 i) (hc1 : ¬cond0_1 i) : Vec F S1x512x1024 .bf16 :=
  VO0_4.read (Elt F) (VO0_4.writes (Elt F) VO0_4.junk (kernelRun0_A (F := F) c i arg2 harg2 arg3 harg3 arg4 harg4 arg5 harg5 arg6 harg6 arg7 harg7 arg8 harg8 hc0 hc1 x0 x1 x2 x3).1)
def sout0_A (hc0 : cond0_0 i) (hc1 : ¬cond0_1 i) : Vec F S1024x1024 .f32 :=
  VS0.read (Elt F) (VS0.writes (Elt F) VS0.junk (kernelRun0_A (F := F) c i arg2 harg2 arg3 harg3 arg4 harg4 arg5 harg5 arg6 harg6 arg7 harg7 arg8 harg8 hc0 hc1 x0 x1 x2 x3).2.1)

variable (xs : Vec F S1024x1024 .f32)

theorem cover0_B_4 (hc0 : ¬cond0_0 i) (hc1 : ¬cond0_1 i) (y : S1x512x1024.Idx) :
    ∃ pc ∈ (kernelRun0_B (F := F) c i arg2 harg2 arg3 harg3 arg4 harg4 arg5 harg5 arg6 harg6 arg7 harg7 arg8 harg8 hc0 hc1 x0 x1 x2 x3 xs).1, y ∈ pc.1.set :=
  View.cover_of_tiledL (kernelRun0_B (F := F) c i arg2 harg2 arg3 harg3 arg4 harg4 arg5 harg5 arg6 harg6 arg7 harg7 arg8 harg8 hc0 hc1 x0 x1 x2 x3 xs).1 S1x512x1024.size (by sl_kernel_rfl) y
theorem scover0_B (hc0 : ¬cond0_0 i) (hc1 : ¬cond0_1 i) (y : S1024x1024.Idx) :
    ∃ pc ∈ (kernelRun0_B (F := F) c i arg2 harg2 arg3 harg3 arg4 harg4 arg5 harg5 arg6 harg6 arg7 harg7 arg8 harg8 hc0 hc1 x0 x1 x2 x3 xs).2.1, y ∈ pc.1.set :=
  View.cover_of_tiledL (kernelRun0_B (F := F) c i arg2 harg2 arg3 harg3 arg4 harg4 arg5 harg5 arg6 harg6 arg7 harg7 arg8 harg8 hc0 hc1 x0 x1 x2 x3 xs).2.1 S1024x1024.size (by sl_kernel_rfl) y
def out0_B_4 (hc0 : ¬cond0_0 i) (hc1 : ¬cond0_1 i) : Vec F S1x512x1024 .bf16 :=
  VO0_4.read (Elt F) (VO0_4.writes (Elt F) VO0_4.junk (kernelRun0_B (F := F) c i arg2 harg2 arg3 harg3 arg4 harg4 arg5 harg5 arg6 harg6 arg7 harg7 arg8 harg8 hc0 hc1 x0 x1 x2 x3 xs).1)
def sout0_B (hc0 : ¬cond0_0 i) (hc1 : ¬cond0_1 i) : Vec F S1024x1024 .f32 :=
  VS0.read (Elt F) (VS0.writes (Elt F) VS0.junk (kernelRun0_B (F := F) c i arg2 harg2 arg3 harg3 arg4 harg4 arg5 harg5 arg6 harg6 arg7 harg7 arg8 harg8 hc0 hc1 x0 x1 x2 x3 xs).2.1)

theorem cover0_C_4 (hc0 : ¬cond0_0 i) (hc1 : cond0_1 i) (y : S1x512x1024.Idx) :
    ∃ pc ∈ (kernelRun0_C (F := F) c i arg2 harg2 arg3 harg3 arg4 harg4 arg5 harg5 arg6 harg6 arg7 harg7 arg8 harg8 hc0 hc1 x0 x1 x2 x3 xs).1, y ∈ pc.1.set :=
  View.cover_of_tiledL (kernelRun0_C (F := F) c i arg2 harg2 arg3 harg3 arg4 harg4 arg5 harg5 arg6 harg6 arg7 harg7 arg8 harg8 hc0 hc1 x0 x1 x2 x3 xs).1 S1x512x1024.size (by sl_kernel_rfl) y
theorem cover0_C_5 (hc0 : ¬cond0_0 i) (hc1 : cond0_1 i) (y : S1x1024x1024.Idx) :
    ∃ pc ∈ (kernelRun0_C (F := F) c i arg2 harg2 arg3 harg3 arg4 harg4 arg5 harg5 arg6 harg6 arg7 harg7 arg8 harg8 hc0 hc1 x0 x1 x2 x3 xs).2.1, y ∈ pc.1.set :=
  View.cover_of_tiledL (kernelRun0_C (F := F) c i arg2 harg2 arg3 harg3 arg4 harg4 arg5 harg5 arg6 harg6 arg7 harg7 arg8 harg8 hc0 hc1 x0 x1 x2 x3 xs).2.1 S1x1024x1024.size (by sl_kernel_rfl) y
theorem scover0_C (hc0 : ¬cond0_0 i) (hc1 : cond0_1 i) (y : S1024x1024.Idx) :
    ∃ pc ∈ (kernelRun0_C (F := F) c i arg2 harg2 arg3 harg3 arg4 harg4 arg5 harg5 arg6 harg6 arg7 harg7 arg8 harg8 hc0 hc1 x0 x1 x2 x3 xs).2.2.1, y ∈ pc.1.set :=
  View.cover_of_tiledL (kernelRun0_C (F := F) c i arg2 harg2 arg3 harg3 arg4 harg4 arg5 harg5 arg6 harg6 arg7 harg7 arg8 harg8 hc0 hc1 x0 x1 x2 x3 xs).2.2.1 S1024x1024.size (by sl_kernel_rfl) y
def out0_C_4 (hc0 : ¬cond0_0 i) (hc1 : cond0_1 i) : Vec F S1x512x1024 .bf16 :=
  VO0_4.read (Elt F) (VO0_4.writes (Elt F) VO0_4.junk (kernelRun0_C (F := F) c i arg2 harg2 arg3 harg3 arg4 harg4 arg5 harg5 arg6 harg6 arg7 harg7 arg8 harg8 hc0 hc1 x0 x1 x2 x3 xs).1)
def out0_C_5 (hc0 : ¬cond0_0 i) (hc1 : cond0_1 i) : Vec F S1x1024x1024 .bf16 :=
  VO0_5.read (Elt F) (VO0_5.writes (Elt F) VO0_5.junk (kernelRun0_C (F := F) c i arg2 harg2 arg3 harg3 arg4 harg4 arg5 harg5 arg6 harg6 arg7 harg7 arg8 harg8 hc0 hc1 x0 x1 x2 x3 xs).2.1)
def sout0_C (hc0 : ¬cond0_0 i) (hc1 : cond0_1 i) : Vec F S1024x1024 .f32 :=
  VS0.read (Elt F) (VS0.writes (Elt F) VS0.junk (kernelRun0_C (F := F) c i arg2 harg2 arg3 harg3 arg4 harg4 arg5 harg5 arg6 harg6 arg7 harg7 arg8 harg8 hc0 hc1 x0 x1 x2 x3 xs).2.2.1)

end Cases

/-- The matrix output's staging buffer where the body stores nothing into it: contents nobody reads. -/
def idle5 : Vec F S1x1024x1024 .bf16 := VO0_5.read (Elt F) VO0_5.junk

section Region0
variable (V : (c : Dev nD) → (b : Ref sig .tc) → Buf (Elt F) ((c : Thread nD τ).loc b))

/-! ## Point by point -/

/-- The three buffers after a first tile, a middle tile (over the accumulator `xs` the tile before left) and a last
    tile, at the point's own staging buffers and input blocks: (row-block output, matrix output, accumulator). -/
def ptA (c : Dev nD) (t : Fin cfg0.N) (h0 : t.val % 8 = 0) (h1 : ¬t.val % 8 = 7) : Vec F S1x512x1024 .bf16 × Vec F S1x1024x1024 .bf16 × Vec F S1024x1024 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((hcond0_0 t).mpr h0) (fun h => h1 ((hcond0_1 t).mp h)), idle5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((hcond0_0 t).mpr h0) (fun h => h1 ((hcond0_1 t).mp h)))
def ptB (c : Dev nD) (t : Fin cfg0.N) (h0 : ¬t.val % 8 = 0) (h1 : ¬t.val % 8 = 7) (xs : Vec F S1024x1024 .f32) : Vec F S1x512x1024 .bf16 × Vec F S1x1024x1024 .bf16 × Vec F S1024x1024 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) (fun h => h1 ((hcond0_1 t).mp h)), idle5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) (fun h => h1 ((hcond0_1 t).mp h)))
def ptC (c : Dev nD) (t : Fin cfg0.N) (h0 : ¬t.val % 8 = 0) (h1 : t.val % 8 = 7) (xs : Vec F S1024x1024 .f32) : Vec F S1x512x1024 .bf16 × Vec F S1x1024x1024 .bf16 × Vec F S1024x1024 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) ((hcond0_1 t).mpr h1), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) ((hcond0_1 t).mpr h1), sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) ((hcond0_1 t).mpr h1))

/-- THE ACCUMULATION: what the two outputs' staging buffers and the accumulator hold after the body at position `n`. -/
def outsAt0 (c : Dev nD) : (n : ℕ) → n < cfg0.N → Vec F S1x512x1024 .bf16 × Vec F S1x1024x1024 .bf16 × Vec F S1024x1024 .f32
  | 0, hn => ptA V c ⟨0, hn⟩ (Nat.zero_mod _) (show ¬(0 : ℕ) % 8 = 7 by decide)
  | n + 1, hn =>
    if h0 : (n + 1) % 8 = 0 then
      if h1 : (n + 1) % 8 = 7 then False.elim (by omega)
      else ptA V c ⟨n + 1, hn⟩ h0 h1
    else
      if h1 : (n + 1) % 8 = 7 then ptC V c ⟨n + 1, hn⟩ h0 h1 (outsAt0 c n (Nat.lt_of_succ_lt hn)).2.2
      else ptB V c ⟨n + 1, hn⟩ h0 h1 (outsAt0 c n (Nat.lt_of_succ_lt hn)).2.2

theorem outsAt0_A (c : Dev nD) (t : Fin cfg0.N) (h0 : t.val % 8 = 0) (h1 : ¬t.val % 8 = 7) :
    outsAt0 V c t.val t.isLt = ptA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = ptB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = ptC V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant -/

/-- Before the first point the scoped rest and the generator register; afterwards the same with the accumulator at
    what the point before left. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ restS0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ restS0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare ((outsAt0 V c t.val t.isLt).1) := by
  unfold Dat.leavesExact; rw [liveAt0_4 t, after0_4]
theorem leaves0_5_idle (c : Dev nD) (t : Fin cfg0.N) (h1 : ¬t.val % 8 = 7) :
    (dat0 V c).leavesExact 5 t = iprop(∃ d, owns (c : Thread nD τ) (ms0_5 t) fullShare ((dat0 V c).before 5 t d)) :=
  Dat.leavesExact_idle (dat0 V c) 5 t (idleAt0_5 t (fun h => h1 ((hcond0_1 t).mp h))) (noFlush0_5 t (fun h => h1 ((hcond0_1 t).mp h)))
theorem leaves0_5_live (c : Dev nD) (t : Fin cfg0.N) (h1 : t.val % 8 = 7) :
    (dat0 V c).leavesExact 5 t = owns (c : Thread nD τ) (ms0_5 t) fullShare ((outsAt0 V c t.val t.isLt).2.1) := by
  unfold Dat.leavesExact; rw [liveAt0_5 t ((hcond0_1 t).mpr h1), after0_5]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4]
  have hN : t.val < 32 := lt_of_lt_of_eq t.isLt (show cfg0.N = 32 from N_0)
  by_cases h0 : t.val % 8 = 0
  · have h1 : ¬t.val % 8 = 7 := by omega
    rw [leaves0_5_idle V c t h1, outsAt0_A V c t h0 h1]
    unfold ptA out0_A_4 sout0_A; dsimp only
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      iexists _; iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      iexists _; iexact H5
  · have hz : t.val ≠ 0 := fun e => h0 (by rw [e])
    by_cases h1 : t.val % 8 = 7
    · rw [leaves0_5_live V c t h1, outsAt0_C V c t h0 h1]
      unfold ptC out0_C_4 out0_C_5 sout0_C; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _)
    · rw [leaves0_5_idle V c t h1, outsAt0_B V c t h0 h1]
      unfold ptB out0_B_4 sout0_B; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      iexists _; iexact H5

theorem body_obligation0 (c : Dev nD) : BodyObligation (dat0 (F := F) V c) (defs₀ (F := F)) Variants.none () Set.univ := fun t => by
  rw [bigSep_W0, bigSep_W0]
  exact sound_body0 V c t

/-! ## The invariant's two ends -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  have hN : cfg0.N = 32 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS, HR⟩, Hg⟩
  isplitl [HS HR]
  · isplitl [HS]
    · iexists _; iexact HS
    iexact HR
  iexact Hg

end Region0

end Cert.Kernel.Hand

end
-- ==== Proof.KbR1.lean ====
/-
  Region 1 (the context kernel, grid 4 × 8): every point loads a row block of Q, its batch's summed matrix, the output
  projection and a row block of x, and stores one row block of the result; nothing is carried between points. What
  the output window's staging buffer holds after the body, the body's run, the proof data and the body obligation,
  all at a parameter: the buffer contents when the region is entered.
-/
import proofs.«127309_j71511205478733_1_alg».proof.Proof.Gen.Kernel.Launch
import proofs.«127309_j71511205478733_1_alg».proof.Proof.Gen.Kernel.Skeleton
import proofs.«127309_j71511205478733_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_row : Rect S1x512x1024 := Rect.unit (s := S1x512x1024) ![0, 0, 0] S1x512x1024.size inb_S1x512x1024_S1x512x1024_0_0_0
abbrev r1_mat3 : Rect S1x1024x1024 := Rect.unit (s := S1x1024x1024) ![0, 0, 0] S1x1024x1024.size inb_S1x1024x1024_S1x1024x1024_0_0_0
abbrev r1_mat : Rect S1024x1024 := Rect.unit (s := S1024x1024) ![0, 0] S1024x1024.size inb_S1024x1024_S1024x1024_0_0

/-- The output window's staging buffer after the body, from the input blocks: its one store, of the body's arithmetic
    on the four loads. -/
def out1_4 (x0 : Vec F S1x512x1024 .bf16) (x1 : Vec F S1x1024x1024 .bf16) (x2 : Vec F S1024x1024 .bf16) (x3 : Vec F S1x512x1024 .f32) : Vec F S1x512x1024 .f32 :=
  View.canon [⟨r1_row, k1_pay1 (View.ld x0 r1_row) (View.ld x1 r1_mat3) (View.ld x2 r1_mat) (View.ld x3 r1_row)⟩]

/-- The one store covers the buffer. -/
theorem cover1_4 (p0 : Vec F S1x512x1024 .f32) (y : S1x512x1024.Idx) :
    ∃ pc ∈ ([⟨r1_row, p0⟩] : List (View.Piece (Elt F) S1x512x1024 .f32)), y ∈ pc.1.set :=
  View.cover_of_tiled [⟨r1_row, p0⟩] S1x512x1024.size (by rfl) y

set_option maxHeartbeats 4000000 in
/-- The body on whole staging buffers, the inputs at their contents and the output at anything, runs to the
    continuation with the inputs as they were and the output at `out1_4` of them. -/
theorem sound_kernel1 (c : Dev nD) (E : Set ℕ) (i : grid1.Coords) (arg2 : Memref sig .tc .vmem S1x512x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1x512x1024 .f32) (harg5 : arg5.IsWhole) (arg6 : Memref sig .tc .vmem S1x512x1024 .f32) (harg6 : arg6.IsWhole)
    (x0 : Vec F S1x512x1024 .bf16) (x1 : Vec F S1x1024x1024 .bf16) (x2 : Vec F S1024x1024 .bf16) (x3 : Vec F S1x512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__context_kernel i arg2 harg2 arg3 harg3 arg4 harg4 arg5 harg5 arg6 harg6) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Region 1's proof data on core `c`: the arrays as the region finds them; after the body each input's buffer at its
    block and the output's at `out1_4` of the input blocks; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KbRun.lean ====
/-
  The whole run of @main: five host conversions, then region 0, then region 1. The buffer contents at each boundary
  as a fold from the launch memory (a host stretch applies its operations; a region leaves its arrays at what its
  write-backs fold to and every other buffer as entered); both regions' proof data, each at its entry contents; the
  regions as segments; the launch. Its post names every unscoped buffer's final contents, from which follow the
  frame (the arguments end as launched) and the result array as region 1's write-backs folded.
-/
import proofs.«127309_j71511205478733_1_alg».proof.Proof.KbR0
import proofs.«127309_j71511205478733_1_alg».proof.Proof.KbR1
import proofs.«127309_j71511205478733_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch; after the host conversions (region 0's entry). -/
abbrev W0 (c : Dev nD) : Valuation τ sig (Elt F) := V0 m c
abbrev W1 (c : Dev nD) : Valuation τ sig (Elt F) := V1 m c
/-- Region 0's entry contents read at the TensorCore's references. -/
abbrev E1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At region 1's exit (the end). -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, and the result is region 1's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 3).trans (((dat1 (E2 m) c).arrAt_in 3 rfl _).trans (A_eq1 (E2 m) c 3))
    _ = W1 m c (Proc.devRef .tc main_arg0) := W2_of_ne m c main_arg0 (by decide)
    _ = m ((c : Thread nD τ).loc main_arg0) := (V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (V1_of m c main_arg4 (by decide)).trans rfl

/-- The result array ends at region 1's write-backs folded over its entry contents. -/
theorem W3_main_v6 (c : Dev nD) : W3 m c (Proc.devRef .tc main_v6) = (dat1 (E2 m) c).arrAt 4 cfg1.N := W3_arr m c 4
/-- Region 1 finds Q and the summed matrices as region 0's write-backs left them, the converted projection and x as
    region 0 found them. -/
theorem E2_main_v5_0 (c : Dev nD) : E2 m c main_v5_0 = (dat0 (E1 m) c).arrAt 4 cfg0.N := W2_arr m c 4
theorem E2_main_v5_1 (c : Dev nD) : E2 m c main_v5_1 = (dat0 (E1 m) c).arrAt 5 cfg0.N := W2_arr m c 5
theorem E2_main_v4 (c : Dev nD) : E2 m c main_v4 = E1 m c main_v4 := W2_of_ne m c main_v4 (by decide)
theorem E2_main_arg0 (c : Dev nD) : E2 m c main_arg0 = m ((c : Thread nD τ).loc main_arg0) :=
  (W2_of_ne m c main_arg0 (by decide)).trans ((V1_of m c main_arg0 (by decide)).trans rfl)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at their final
    contents at exit; the generator register goes into the invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at their final
    contents at exit; the generator register goes into the invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, and every final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named too. -/
theorem run_value : θ_run defs (onTc (τ := τ) (main (F := F))) ⟨m, fun _ => 0, ρ⟩ (fun r => ∀ c : Dev nD,
      r.2.mem ((c.tc : Thread nD τ).loc main_v6) = (dat1 (E2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W3_main_v6 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Hand

end
-- ==== Proof.KiR0Base.lean ====
/-
  Region 0 (the projection-and-accumulate kernel, grid 4 × 8: batch × sequence tile): what its three control cases
  share. The window blocks read off the arrays as the region finds them; each input window's staging buffer holds
  its block at every point; the two branch conditions of the body in closed form over the grid (the accumulator is
  reset at the first tile of a batch, the summed matrix is stored at the last); where the second output window is idle.
-/
import proofs.«127309_j71511205478733_1_alg».proof.Proof.Gen.KernelIdeal.Launch
import proofs.«127309_j71511205478733_1_alg».proof.Proof.Gen.KernelIdeal.Skeleton
import proofs.«127309_j71511205478733_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is the entry contents and whose body leaves the block in place. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, over the grid -/

/-- "This is the first sequence tile of its batch": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last sequence tile of its batch": the summed matrix is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a batch's last tile the matrix output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The staging memrefs at a point, and the accumulator -/

abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .bf16 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S1024x1024 .f32 := Memref.whole cc0_scratch0
abbrev VS0 : View sig .tc .vmem S1024x1024 .f32 := scM0.view
/-- One staging buffer of each output window, through which its contents are stated. -/
abbrev VO0_4 : View sig .tc .vmem S1x512x1024 .bf16 := (Memref.whole cc0_stg4_0 : Memref sig .tc .vmem S1x512x1024 .bf16).view
abbrev VO0_5 : View sig .tc .vmem S1x1024x1024 .bf16 := (Memref.whole cc0_stg5_0 : Memref sig .tc .vmem S1x1024x1024 .bf16).view

/-- The class invariant of region 0 with the accumulator split out of the scoped rest. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

end Cert.KernelIdeal.Hand

end
-- ==== Proof.KiR0RunA.lean ====
/-
  Region 0's body at the first sequence tile of a batch (reset, then accumulate; the matrix output untouched): its
  run on whole staging buffers, the pieces each written buffer ends with found by the run itself.
-/
import proofs.«127309_j71511205478733_1_alg».proof.Proof.KiR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a first tile: the inputs at their contents, the row-block output and the accumulator at anything, the matrix
    output at contents handed back untouched; the body runs to the continuation with the row-block output and the
    accumulator at their pieces written. -/
noncomputable def kernelRun0_A (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (hc0 : cond0_0 i) (hc1 : ¬cond0_1 i)
    (x0 : Vec F S1x512x1024 .bf16) (x1 : Vec F S1024x1024 .bf16) (x2 : Vec F S1024x1024 .bf16) (x3 : Vec F S1024x1024 .bf16) :
    Σ' (L4 : List (View.Piece (Elt F) S1x512x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__qkv_and_m_kernel i arg2 harg2 arg3 harg3 arg4 harg4 arg5 harg5 arg6 harg6 arg7 harg7 arg8 harg8) K } := by
  refine ⟨?_, ?_, fun xi5 E K => ?run⟩
  case run =>
    simp only [cc0__qkv_and_m_kernel_eq_skeleton]; unfold cc0__qkv_and_m_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.KernelIdeal.Hand

end
-- ==== Proof.KiR0RunB.lean ====
/-
  Region 0's body at a middle sequence tile of a batch (accumulate only): its run on whole staging buffers.
-/
import proofs.«127309_j71511205478733_1_alg».proof.Proof.KiR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle tile: the accumulator at what the tile before left; the matrix output handed back untouched. -/
noncomputable def kernelRun0_B (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : ¬cond0_1 i)
    (x0 : Vec F S1x512x1024 .bf16) (x1 : Vec F S1024x1024 .bf16) (x2 : Vec F S1024x1024 .bf16) (x3 : Vec F S1024x1024 .bf16) (xs : Vec F S1024x1024 .f32) :
    Σ' (L4 : List (View.Piece (Elt F) S1x512x1024 .bf16)), { LS : List (View.Piece (Elt F) S1024x1024 .f32) //
      ∀ (xi5 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__qkv_and_m_kernel i arg2 harg2 arg3 harg3 arg4 harg4 arg5 harg5 arg6 harg6 arg7 harg7 arg8 harg8) K } := by
  refine ⟨?_, ?_, fun xi5 E K => ?run⟩
  case run =>
    simp only [cc0__qkv_and_m_kernel_eq_skeleton]; unfold cc0__qkv_and_m_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

end Cert.KernelIdeal.Hand

end
-- ==== Proof.KiR0RunC.lean ====
/-
  Region 0's body at the last sequence tile of a batch (accumulate, then store the summed matrix): its run.
-/
import proofs.«127309_j71511205478733_1_alg».proof.Proof.KiR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last tile: the accumulator at what the tile before left; the matrix output at anything, left at its pieces. -/
noncomputable def kernelRun0_C (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (hc0 : ¬cond0_0 i) (hc1 : cond0_1 i)
    (x0 : Vec F S1x512x1024 .bf16) (x1 : Vec F S1024x1024 .bf16) (x2 : Vec F S1024x1024 .bf16) (x3 : Vec F S1024x1024 .bf16) (xs : Vec F S1024x1024 .f32) :
    Σ' (L4 : List (View.Piece (Elt F) S1x512x1024 .bf16)) (L5 : List (View.Piece (Elt F) S1x1024x1024 .bf16)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__qkv_and_m_kernel i arg2 harg2 arg3 harg3 arg4 harg4 arg5 harg5 arg6 harg6 arg7 harg7 arg8 harg8) K } := by
  refine ⟨?_, ?_, ?_, fun E K => ?run⟩
  case run =>
    simp only [cc0__qkv_and_m_kernel_eq_skeleton]; unfold cc0__qkv_and_m_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.KernelIdeal.Hand

end
-- ==== Proof.KiR0.lean ====
/-
  Region 0, assembled: what each control case leaves in the row-block output, the matrix output and the accumulator
  (the pieces its run found, read back); what the three hold after every point of the grid, by recursion on the point
  (the accumulator at a tile is the case's result over what the tile before left); the invariant carrying the
  accumulator between points; the proof data; the body obligation; and the invariant's two ends.
-/
import proofs.«127309_j71511205478733_1_alg».proof.Proof.KiR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases
variable (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (x0 : Vec F S1x512x1024 .bf16) (x1 : Vec F S1024x1024 .bf16) (x2 : Vec F S1024x1024 .bf16) (x3 : Vec F S1024x1024 .bf16)

theorem cover0_A_4 (hc0 : cond0_0 i) (hc1 : ¬cond0_1 i) (y : S1x512x1024.Idx) :
    ∃ pc ∈ (kernelRun0_A (F := F) c i arg2 harg2 arg3 harg3 arg4 harg4 arg5 harg5 arg6 harg6 arg7 harg7 arg8 harg8 hc0 hc1 x0 x1 x2 x3).1, y ∈ pc.1.set :=
  View.cover_of_tiledL (kernelRun0_A (F := F) c i arg2 harg2 arg3 harg3 arg4 harg4 arg5 harg5 arg6 harg6 arg7 harg7 arg8 harg8 hc0 hc1 x0 x1 x2 x3).1 S1x512x1024.size (by sl_kernel_rfl) y
theorem scover0_A (hc0 : cond0_0 i) (hc1 : ¬cond0_1 i) (y : S1024x1024.Idx) :
    ∃ pc ∈ (kernelRun0_A (F := F) c i arg2 harg2 arg3 harg3 arg4 harg4 arg5 harg5 arg6 harg6 arg7 harg7 arg8 harg8 hc0 hc1 x0 x1 x2 x3).2.1, y ∈ pc.1.set :=
  View.cover_of_tiledL (kernelRun0_A (F := F) c i arg2 harg2 arg3 harg3 arg4 harg4 arg5 harg5 arg6 harg6 arg7 harg7 arg8 harg8 hc0 hc1 x0 x1 x2 x3).2.1 S1024x1024.size (by sl_kernel_rfl) y
def out0_A_4 (hc0 : cond0_0 i) (hc1 : ¬cond0_1 i) : Vec F S1x512x1024 .bf16 :=
  VO0_4.read (Elt F) (VO0_4.writes (Elt F) VO0_4.junk (kernelRun0_A (F := F) c i arg2 harg2 arg3 harg3 arg4 harg4 arg5 harg5 arg6 harg6 arg7 harg7 arg8 harg8 hc0 hc1 x0 x1 x2 x3).1)
def sout0_A (hc0 : cond0_0 i) (hc1 : ¬cond0_1 i) : Vec F S1024x1024 .f32 :=
  VS0.read (Elt F) (VS0.writes (Elt F) VS0.junk (kernelRun0_A (F := F) c i arg2 harg2 arg3 harg3 arg4 harg4 arg5 harg5 arg6 harg6 arg7 harg7 arg8 harg8 hc0 hc1 x0 x1 x2 x3).2.1)

variable (xs : Vec F S1024x1024 .f32)

theorem cover0_B_4 (hc0 : ¬cond0_0 i) (hc1 : ¬cond0_1 i) (y : S1x512x1024.Idx) :
    ∃ pc ∈ (kernelRun0_B (F := F) c i arg2 harg2 arg3 harg3 arg4 harg4 arg5 harg5 arg6 harg6 arg7 harg7 arg8 harg8 hc0 hc1 x0 x1 x2 x3 xs).1, y ∈ pc.1.set :=
  View.cover_of_tiledL (kernelRun0_B (F := F) c i arg2 harg2 arg3 harg3 arg4 harg4 arg5 harg5 arg6 harg6 arg7 harg7 arg8 harg8 hc0 hc1 x0 x1 x2 x3 xs).1 S1x512x1024.size (by sl_kernel_rfl) y
theorem scover0_B (hc0 : ¬cond0_0 i) (hc1 : ¬cond0_1 i) (y : S1024x1024.Idx) :
    ∃ pc ∈ (kernelRun0_B (F := F) c i arg2 harg2 arg3 harg3 arg4 harg4 arg5 harg5 arg6 harg6 arg7 harg7 arg8 harg8 hc0 hc1 x0 x1 x2 x3 xs).2.1, y ∈ pc.1.set :=
  View.cover_of_tiledL (kernelRun0_B (F := F) c i arg2 harg2 arg3 harg3 arg4 harg4 arg5 harg5 arg6 harg6 arg7 harg7 arg8 harg8 hc0 hc1 x0 x1 x2 x3 xs).2.1 S1024x1024.size (by sl_kernel_rfl) y
def out0_B_4 (hc0 : ¬cond0_0 i) (hc1 : ¬cond0_1 i) : Vec F S1x512x1024 .bf16 :=
  VO0_4.read (Elt F) (VO0_4.writes (Elt F) VO0_4.junk (kernelRun0_B (F := F) c i arg2 harg2 arg3 harg3 arg4 harg4 arg5 harg5 arg6 harg6 arg7 harg7 arg8 harg8 hc0 hc1 x0 x1 x2 x3 xs).1)
def sout0_B (hc0 : ¬cond0_0 i) (hc1 : ¬cond0_1 i) : Vec F S1024x1024 .f32 :=
  VS0.read (Elt F) (VS0.writes (Elt F) VS0.junk (kernelRun0_B (F := F) c i arg2 harg2 arg3 harg3 arg4 harg4 arg5 harg5 arg6 harg6 arg7 harg7 arg8 harg8 hc0 hc1 x0 x1 x2 x3 xs).2.1)

theorem cover0_C_4 (hc0 : ¬cond0_0 i) (hc1 : cond0_1 i) (y : S1x512x1024.Idx) :
    ∃ pc ∈ (kernelRun0_C (F := F) c i arg2 harg2 arg3 harg3 arg4 harg4 arg5 harg5 arg6 harg6 arg7 harg7 arg8 harg8 hc0 hc1 x0 x1 x2 x3 xs).1, y ∈ pc.1.set :=
  View.cover_of_tiledL (kernelRun0_C (F := F) c i arg2 harg2 arg3 harg3 arg4 harg4 arg5 harg5 arg6 harg6 arg7 harg7 arg8 harg8 hc0 hc1 x0 x1 x2 x3 xs).1 S1x512x1024.size (by sl_kernel_rfl) y
theorem cover0_C_5 (hc0 : ¬cond0_0 i) (hc1 : cond0_1 i) (y : S1x1024x1024.Idx) :
    ∃ pc ∈ (kernelRun0_C (F := F) c i arg2 harg2 arg3 harg3 arg4 harg4 arg5 harg5 arg6 harg6 arg7 harg7 arg8 harg8 hc0 hc1 x0 x1 x2 x3 xs).2.1, y ∈ pc.1.set :=
  View.cover_of_tiledL (kernelRun0_C (F := F) c i arg2 harg2 arg3 harg3 arg4 harg4 arg5 harg5 arg6 harg6 arg7 harg7 arg8 harg8 hc0 hc1 x0 x1 x2 x3 xs).2.1 S1x1024x1024.size (by sl_kernel_rfl) y
theorem scover0_C (hc0 : ¬cond0_0 i) (hc1 : cond0_1 i) (y : S1024x1024.Idx) :
    ∃ pc ∈ (kernelRun0_C (F := F) c i arg2 harg2 arg3 harg3 arg4 harg4 arg5 harg5 arg6 harg6 arg7 harg7 arg8 harg8 hc0 hc1 x0 x1 x2 x3 xs).2.2.1, y ∈ pc.1.set :=
  View.cover_of_tiledL (kernelRun0_C (F := F) c i arg2 harg2 arg3 harg3 arg4 harg4 arg5 harg5 arg6 harg6 arg7 harg7 arg8 harg8 hc0 hc1 x0 x1 x2 x3 xs).2.2.1 S1024x1024.size (by sl_kernel_rfl) y
def out0_C_4 (hc0 : ¬cond0_0 i) (hc1 : cond0_1 i) : Vec F S1x512x1024 .bf16 :=
  VO0_4.read (Elt F) (VO0_4.writes (Elt F) VO0_4.junk (kernelRun0_C (F := F) c i arg2 harg2 arg3 harg3 arg4 harg4 arg5 harg5 arg6 harg6 arg7 harg7 arg8 harg8 hc0 hc1 x0 x1 x2 x3 xs).1)
def out0_C_5 (hc0 : ¬cond0_0 i) (hc1 : cond0_1 i) : Vec F S1x1024x1024 .bf16 :=
  VO0_5.read (Elt F) (VO0_5.writes (Elt F) VO0_5.junk (kernelRun0_C (F := F) c i arg2 harg2 arg3 harg3 arg4 harg4 arg5 harg5 arg6 harg6 arg7 harg7 arg8 harg8 hc0 hc1 x0 x1 x2 x3 xs).2.1)
def sout0_C (hc0 : ¬cond0_0 i) (hc1 : cond0_1 i) : Vec F S1024x1024 .f32 :=
  VS0.read (Elt F) (VS0.writes (Elt F) VS0.junk (kernelRun0_C (F := F) c i arg2 harg2 arg3 harg3 arg4 harg4 arg5 harg5 arg6 harg6 arg7 harg7 arg8 harg8 hc0 hc1 x0 x1 x2 x3 xs).2.2.1)

end Cases

/-- The matrix output's staging buffer where the body stores nothing into it: contents nobody reads. -/
def idle5 : Vec F S1x1024x1024 .bf16 := VO0_5.read (Elt F) VO0_5.junk

section Region0
variable (V : (c : Dev nD) → (b : Ref sig .tc) → Buf (Elt F) ((c : Thread nD τ).loc b))

/-! ## Point by point -/

/-- The three buffers after a first tile, a middle tile (over the accumulator `xs` the tile before left) and a last
    tile, at the point's own staging buffers and input blocks: (row-block output, matrix output, accumulator). -/
def ptA (c : Dev nD) (t : Fin cfg0.N) (h0 : t.val % 8 = 0) (h1 : ¬t.val % 8 = 7) : Vec F S1x512x1024 .bf16 × Vec F S1x1024x1024 .bf16 × Vec F S1024x1024 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((hcond0_0 t).mpr h0) (fun h => h1 ((hcond0_1 t).mp h)), idle5, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((hcond0_0 t).mpr h0) (fun h => h1 ((hcond0_1 t).mp h)))
def ptB (c : Dev nD) (t : Fin cfg0.N) (h0 : ¬t.val % 8 = 0) (h1 : ¬t.val % 8 = 7) (xs : Vec F S1024x1024 .f32) : Vec F S1x512x1024 .bf16 × Vec F S1x1024x1024 .bf16 × Vec F S1024x1024 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) (fun h => h1 ((hcond0_1 t).mp h)), idle5, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) (fun h => h1 ((hcond0_1 t).mp h)))
def ptC (c : Dev nD) (t : Fin cfg0.N) (h0 : ¬t.val % 8 = 0) (h1 : t.val % 8 = 7) (xs : Vec F S1024x1024 .f32) : Vec F S1x512x1024 .bf16 × Vec F S1x1024x1024 .bf16 × Vec F S1024x1024 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) ((hcond0_1 t).mpr h1), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) ((hcond0_1 t).mpr h1), sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) xs (fun h => h0 ((hcond0_0 t).mp h)) ((hcond0_1 t).mpr h1))

/-- THE ACCUMULATION: what the two outputs' staging buffers and the accumulator hold after the body at position `n`. -/
def outsAt0 (c : Dev nD) : (n : ℕ) → n < cfg0.N → Vec F S1x512x1024 .bf16 × Vec F S1x1024x1024 .bf16 × Vec F S1024x1024 .f32
  | 0, hn => ptA V c ⟨0, hn⟩ (Nat.zero_mod _) (show ¬(0 : ℕ) % 8 = 7 by decide)
  | n + 1, hn =>
    if h0 : (n + 1) % 8 = 0 then
      if h1 : (n + 1) % 8 = 7 then False.elim (by omega)
      else ptA V c ⟨n + 1, hn⟩ h0 h1
    else
      if h1 : (n + 1) % 8 = 7 then ptC V c ⟨n + 1, hn⟩ h0 h1 (outsAt0 c n (Nat.lt_of_succ_lt hn)).2.2
      else ptB V c ⟨n + 1, hn⟩ h0 h1 (outsAt0 c n (Nat.lt_of_succ_lt hn)).2.2

theorem outsAt0_A (c : Dev nD) (t : Fin cfg0.N) (h0 : t.val % 8 = 0) (h1 : ¬t.val % 8 = 7) :
    outsAt0 V c t.val t.isLt = ptA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 8 = 0) (h1 : ¬t.val % 8 = 7) :
    outsAt0 V c t.val t.isLt = ptB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = ptC V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant -/

/-- Before the first point the scoped rest and the generator register; afterwards the same with the accumulator at
    what the point before left. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ restS0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ restS0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare ((outsAt0 V c t.val t.isLt).1) := by
  unfold Dat.leavesExact; rw [liveAt0_4 t, after0_4]
theorem leaves0_5_idle (c : Dev nD) (t : Fin cfg0.N) (h1 : ¬t.val % 8 = 7) :
    (dat0 V c).leavesExact 5 t = iprop(∃ d, owns (c : Thread nD τ) (ms0_5 t) fullShare ((dat0 V c).before 5 t d)) :=
  Dat.leavesExact_idle (dat0 V c) 5 t (idleAt0_5 t (fun h => h1 ((hcond0_1 t).mp h))) (noFlush0_5 t (fun h => h1 ((hcond0_1 t).mp h)))
theorem leaves0_5_live (c : Dev nD) (t : Fin cfg0.N) (h1 : t.val % 8 = 7) :
    (dat0 V c).leavesExact 5 t = owns (c : Thread nD τ) (ms0_5 t) fullShare ((outsAt0 V c t.val t.isLt).2.1) := by
  unfold Dat.leavesExact; rw [liveAt0_5 t ((hcond0_1 t).mpr h1), after0_5]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4]
  have hN : t.val < 32 := lt_of_lt_of_eq t.isLt (show cfg0.N = 32 from N_0)
  by_cases h0 : t.val % 8 = 0
  · have h1 : ¬t.val % 8 = 7 := by omega
    rw [leaves0_5_idle V c t h1, outsAt0_A V c t h0 h1]
    unfold ptA out0_A_4 sout0_A; dsimp only
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      iexists _; iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      iexists _; iexact H5
  · have hz : t.val ≠ 0 := fun e => h0 (by rw [e])
    by_cases h1 : t.val % 8 = 7
    · rw [leaves0_5_live V c t h1, outsAt0_C V c t h0 h1]
      unfold ptC out0_C_4 out0_C_5 sout0_C; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _)
    · rw [leaves0_5_idle V c t h1, outsAt0_B V c t h0 h1]
      unfold ptB out0_B_4 sout0_B; dsimp only
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _)
      iexists _; iexact H5

theorem body_obligation0 (c : Dev nD) : BodyObligation (dat0 (F := F) V c) (defs₀ (F := F)) Variants.none () Set.univ := fun t => by
  rw [bigSep_W0, bigSep_W0]
  exact sound_body0 V c t

/-! ## The invariant's two ends -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  have hN : cfg0.N = 32 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS, HR⟩, Hg⟩
  isplitl [HS HR]
  · isplitl [HS]
    · iexists _; iexact HS
    iexact HR
  iexact Hg

end Region0

end Cert.KernelIdeal.Hand

end
-- ==== Proof.KiR1.lean ====
/-
  Region 1 (the context kernel, grid 4 × 8): every point loads a row block of Q, its batch's summed matrix, the output
  projection and a row block of x, and stores one row block of the result; nothing is carried between points. What
  the output window's staging buffer holds after the body, the body's run, the proof data and the body obligation,
  all at a parameter: the buffer contents when the region is entered.
-/
import proofs.«127309_j71511205478733_1_alg».proof.Proof.Gen.KernelIdeal.Launch
import proofs.«127309_j71511205478733_1_alg».proof.Proof.Gen.KernelIdeal.Skeleton
import proofs.«127309_j71511205478733_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_row : Rect S1x512x1024 := Rect.unit (s := S1x512x1024) ![0, 0, 0] S1x512x1024.size inb_S1x512x1024_S1x512x1024_0_0_0
abbrev r1_mat3 : Rect S1x1024x1024 := Rect.unit (s := S1x1024x1024) ![0, 0, 0] S1x1024x1024.size inb_S1x1024x1024_S1x1024x1024_0_0_0
abbrev r1_mat : Rect S1024x1024 := Rect.unit (s := S1024x1024) ![0, 0] S1024x1024.size inb_S1024x1024_S1024x1024_0_0

/-- The output window's staging buffer after the body, from the input blocks: its one store, of the body's arithmetic
    on the four loads. -/
def out1_4 (x0 : Vec F S1x512x1024 .bf16) (x1 : Vec F S1x1024x1024 .bf16) (x2 : Vec F S1024x1024 .bf16) (x3 : Vec F S1x512x1024 .f32) : Vec F S1x512x1024 .f32 :=
  View.canon [⟨r1_row, k1_pay1 (View.ld x0 r1_row) (View.ld x1 r1_mat3) (View.ld x2 r1_mat) (View.ld x3 r1_row)⟩]

/-- The one store covers the buffer. -/
theorem cover1_4 (p0 : Vec F S1x512x1024 .f32) (y : S1x512x1024.Idx) :
    ∃ pc ∈ ([⟨r1_row, p0⟩] : List (View.Piece (Elt F) S1x512x1024 .f32)), y ∈ pc.1.set :=
  View.cover_of_tiled [⟨r1_row, p0⟩] S1x512x1024.size (by rfl) y

set_option maxHeartbeats 4000000 in
/-- The body on whole staging buffers, the inputs at their contents and the output at anything, runs to the
    continuation with the inputs as they were and the output at `out1_4` of them. -/
theorem sound_kernel1 (c : Dev nD) (E : Set ℕ) (i : grid1.Coords) (arg2 : Memref sig .tc .vmem S1x512x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1x512x1024 .f32) (harg5 : arg5.IsWhole) (arg6 : Memref sig .tc .vmem S1x512x1024 .f32) (harg6 : arg6.IsWhole)
    (x0 : Vec F S1x512x1024 .bf16) (x1 : Vec F S1x1024x1024 .bf16) (x2 : Vec F S1024x1024 .bf16) (x3 : Vec F S1x512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__context_kernel i arg2 harg2 arg3 harg3 arg4 harg4 arg5 harg5 arg6 harg6) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Region 1's proof data on core `c`: the arrays as the region finds them; after the body each input's buffer at its
    block and the output's at `out1_4` of the input blocks; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiRun.lean ====
/-
  The whole run of @main: five host conversions, then region 0, then region 1. The buffer contents at each boundary
  as a fold from the launch memory (a host stretch applies its operations; a region leaves its arrays at what its
  write-backs fold to and every other buffer as entered); both regions' proof data, each at its entry contents; the
  regions as segments; the launch. Its post names every unscoped buffer's final contents, from which follow the
  frame (the arguments end as launched) and the result array as region 1's write-backs folded.
-/
import proofs.«127309_j71511205478733_1_alg».proof.Proof.KiR0
import proofs.«127309_j71511205478733_1_alg».proof.Proof.KiR1
import proofs.«127309_j71511205478733_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch; after the host conversions (region 0's entry). -/
abbrev W0 (c : Dev nD) : Valuation τ sig (Elt F) := V0 m c
abbrev W1 (c : Dev nD) : Valuation τ sig (Elt F) := V1 m c
/-- Region 0's entry contents read at the TensorCore's references. -/
abbrev E1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At region 1's exit (the end). -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, and the result is region 1's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 3).trans (((dat1 (E2 m) c).arrAt_in 3 rfl _).trans (A_eq1 (E2 m) c 3))
    _ = W1 m c (Proc.devRef .tc main_arg0) := W2_of_ne m c main_arg0 (by decide)
    _ = m ((c : Thread nD τ).loc main_arg0) := (V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (V1_of m c main_arg4 (by decide)).trans rfl

/-- The result array ends at region 1's write-backs folded over its entry contents. -/
theorem W3_main_v6 (c : Dev nD) : W3 m c (Proc.devRef .tc main_v6) = (dat1 (E2 m) c).arrAt 4 cfg1.N := W3_arr m c 4
/-- Region 1 finds Q and the summed matrices as region 0's write-backs left them, the converted projection and x as
    region 0 found them. -/
theorem E2_main_v5_0 (c : Dev nD) : E2 m c main_v5_0 = (dat0 (E1 m) c).arrAt 4 cfg0.N := W2_arr m c 4
theorem E2_main_v5_1 (c : Dev nD) : E2 m c main_v5_1 = (dat0 (E1 m) c).arrAt 5 cfg0.N := W2_arr m c 5
theorem E2_main_v4 (c : Dev nD) : E2 m c main_v4 = E1 m c main_v4 := W2_of_ne m c main_v4 (by decide)
theorem E2_main_arg0 (c : Dev nD) : E2 m c main_arg0 = m ((c : Thread nD τ).loc main_arg0) :=
  (W2_of_ne m c main_arg0 (by decide)).trans ((V1_of m c main_arg0 (by decide)).trans rfl)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at their final
    contents at exit; the generator register goes into the invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at their final
    contents at exit; the generator register goes into the invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, and every final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result array named too. -/
theorem run_value : θ_run defs (onTc (τ := τ) (main (F := F))) ⟨m, fun _ => 0, ρ⟩ (fun r => ∀ c : Dev nD,
      r.2.mem ((c.tc : Thread nD τ).loc main_v6) = (dat1 (E2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans (W3_main_v6 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.Spec.lean ====
/-
  The mathematics both programs compute, over the extended reals, with every array a function of its coordinates.

  With `x : [4, 4096, 1024]` and four `[1024, 1024]` weight matrices, write `Q = x·Wq`, `K = x·Wk`, `V = x·Wv`
  (each a contraction over the model axis). The reference forms the score matrix `Q·Kᵀ` (a contraction over the key
  axis, `[4, 4096, 4096]`), multiplies it by `V` (a contraction over the sequence axis), projects by `P` and adds `x`.
  The kernel never forms the scores: per batch it sums `Kᵀ·V` (a `[1024, 1024]` matrix) over eight tiles of 512 rows of
  the sequence axis, starting from zero, multiplies `Q` by that matrix, projects by `P` and adds `x`.
  The two agree when every entry is a real number: then both are the real triple sum
  `Σ_v Σ_k Σ_t Q[s,k]·K[t,k]·V[t,v]·P[v,o]`, summed in two orders (associativity of the matrix product). At an infinite
  entry the distributive law fails on the extended reals, which is why the statement assumes finiteness.
-/
import Idealize.ShloMosaic.PureOps.Ideal

noncomputable section

open scoped BigOperators

namespace Cert.Spec

/-- An activation array `[4, 4096, 1024]` and a weight matrix `[1024, 1024]` as functions of their coordinates. -/
abbrev Act : Type := Fin 4 → Fin 4096 → Fin 1024 → EReal
abbrev Mat : Type := Fin 1024 → Fin 1024 → EReal

/-- The projection `x·W`: row `(b, s)` of `x` against column `k` of `W`. -/
def proj (x : Act) (W : Mat) : Act := fun b s k => ∑ d : Fin 1024, x b s d * W d k

/-- Row `r` of tile `j` of the sequence axis (tiles of 512 rows; `j < 8` in every use). -/
def tileRow (j : ℕ) (r : Fin 512) : Fin 4096 := ⟨(512 * j + r.val) % 4096, Nat.mod_lt _ (by decide)⟩

/-- Tile `j`'s contribution to `Kᵀ·V` in batch `b`: the contraction of the tile's 512 rows. -/
def tileKV (K V : Act) (b : Fin 4) (j : ℕ) : Mat := fun k v => ∑ r : Fin 512, K b (tileRow j r) k * V b (tileRow j r) v

/-- The accumulator after tile `n`: zero plus tile 0, then one tile added at a time, in tile order. -/
def accKV (K V : Act) (b : Fin 4) : ℕ → Mat
  | 0 => fun k v => 0 + tileKV K V b 0 k v
  | n + 1 => fun k v => accKV K V b n k v + tileKV K V b (n + 1) k v

/-- What the kernel computes: `x + (Q·(Σ_tiles Kᵀ·V))·P`. -/
def kernelOut (x : Act) (Wq Wk Wv P : Mat) : Act := fun b s o =>
  x b s o + ∑ v : Fin 1024, (∑ k : Fin 1024, proj x Wq b s k * accKV (proj x Wk) (proj x Wv) b 7 k v) * P v o

/-- What the reference computes: `x + ((Q·Kᵀ)·V)·P`. -/
def refOut (x : Act) (Wq Wk Wv P : Mat) : Act := fun b s o =>
  x b s o + ∑ v : Fin 1024, (∑ t : Fin 4096, (∑ k : Fin 1024, proj x Wq b s k * proj x Wk b t k) * proj x Wv b t v) * P v o

/-- An array all of whose entries are real numbers. -/
def FiniteAct (x : Act) : Prop := ∀ b s d, x b s d ≠ ⊤ ∧ x b s d ≠ ⊥
def FiniteMat (W : Mat) : Prop := ∀ d k, W d k ≠ ⊤ ∧ W d k ≠ ⊥

end Cert.Spec

end
-- ==== Proof.SpecIdx.lean ====
/-
  The arrays of the two programs, which are functions of an index vector, read as functions of their coordinates:
  the form the specification is written over.
-/
import proofs.«127309_j71511205478733_1_alg».proof.Proof.Spec
import Idealize.ShloMosaic.Lib.ValueIdx

noncomputable section

namespace Cert.Spec

open Idealize.ShloMosaic Idealize.ShloMosaic.ValueIdx

/-- A `[4, 4096, 1024]` array of extended reals by coordinates. -/
def act (x : (⟨3, ![4, 4096, 1024]⟩ : Shape).Idx → EReal) : Act := fun b s d => x (ix3 b s d)
/-- A `[1024, 1024]` matrix of extended reals by coordinates. -/
def mat (W : (⟨2, ![1024, 1024]⟩ : Shape).Idx → EReal) : Mat := fun d k => W (ix2 d k)

end Cert.Spec

end
-- ==== Proof.KiHost.lean ====
/-
  The five host conversions before region 0 change the format of x and of the four weight matrices and nothing else:
  over the extended reals a change of format is the identity, so each converted array, read by coordinates, is the
  argument it was converted from.
-/
import proofs.«127309_j71511205478733_1_alg».proof.Proof.Gen.KernelIdeal.Regions
import proofs.«127309_j71511205478733_1_alg».proof.Proof.SpecIdx
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

theorem V1_main_v0 (c : Dev nD) : (V1 (F := Ideal) m c (Proc.devRef .tc main_v0) : S4x4096x1024.Idx → EReal) = (m ((c : Thread nD τ).loc main_arg0) : S4x4096x1024.Idx → EReal) := by
  show StableHlo.after hostOps0 (fun b => m (c, b)) (Proc.devRef .tc main_v0) = _
  after_results; rfl
theorem V1_main_v1 (c : Dev nD) : (V1 (F := Ideal) m c (Proc.devRef .tc main_v1) : S1024x1024.Idx → EReal) = (m ((c : Thread nD τ).loc main_arg1) : S1024x1024.Idx → EReal) := by
  show StableHlo.after hostOps0 (fun b => m (c, b)) (Proc.devRef .tc main_v1) = _
  after_results; rfl
theorem V1_main_v2 (c : Dev nD) : (V1 (F := Ideal) m c (Proc.devRef .tc main_v2) : S1024x1024.Idx → EReal) = (m ((c : Thread nD τ).loc main_arg2) : S1024x1024.Idx → EReal) := by
  show StableHlo.after hostOps0 (fun b => m (c, b)) (Proc.devRef .tc main_v2) = _
  after_results; rfl
theorem V1_main_v3 (c : Dev nD) : (V1 (F := Ideal) m c (Proc.devRef .tc main_v3) : S1024x1024.Idx → EReal) = (m ((c : Thread nD τ).loc main_arg3) : S1024x1024.Idx → EReal) := by
  show StableHlo.after hostOps0 (fun b => m (c, b)) (Proc.devRef .tc main_v3) = _
  after_results; rfl
theorem V1_main_v4 (c : Dev nD) : (V1 (F := Ideal) m c (Proc.devRef .tc main_v4) : S1024x1024.Idx → EReal) = (m ((c : Thread nD τ).loc main_arg4) : S1024x1024.Idx → EReal) := by
  show StableHlo.after hostOps0 (fun b => m (c, b)) (Proc.devRef .tc main_v4) = _
  after_results; rfl

end Cert.KernelIdeal.Hand

end
-- ==== Proof.KiVal0a.lean ====
/-
  Region 0's found pieces as the body's arithmetic, and that arithmetic read at an index over the extended reals.
  Whatever the control case, the row-block output is the projection of the x block by Wq; the accumulator ends at
  what it held (zero after a reset) plus Kᵀ·V of the tile, K and V the projections of the x block by Wk and Wv; and at
  a batch's last tile the matrix output is the accumulator.
-/
import proofs.«127309_j71511205478733_1_alg».proof.Proof.KiR0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The pieces are the payloads (any float instance) -/

/-- The whole-buffer rectangles sit at zero offsets, however the zeros are spelt. -/
theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S1x1024x1024 .bf16) (harg7 : arg7.IsWhole) (arg8 : Memref sig .tc .vmem S1024x1024 .f32) (harg8 : arg8.IsWhole) (x0 : Vec F S1x512x1024 .bf16) (x1 : Vec F S1024x1024 .bf16) (x2 : Vec F S1024x1024 .bf16) (x3 : Vec F S1024x1024 .bf16)

/-- First tile: the row-block output holds the one piece stored into it, the projection payload of the blocks read. -/
theorem out0_A_4_eq (hc0 : cond0_0 i) (hc1 : ¬cond0_1 i) :
    out0_A_4 (F := F) c i arg2 harg2 arg3 harg3 arg4 harg4 arg5 harg5 arg6 harg6 arg7 harg7 arg8 harg8 x0 x1 x2 x3 hc0 hc1 = k0_pay3 x0 x1 := by
  unfold out0_A_4
  rw [View.read_writes_eq_canon _ _ _ (cover0_A_4 c i arg2 harg2 arg3 harg3 arg4 harg4 arg5 harg5 arg6 harg6 arg7 harg7 arg8 harg8 x0 x1 x2 x3 hc0 hc1)]
  unfold kernelRun0_A
  dsimp only
  sl_unfold_words
  rw [View.canon_unit_zero (S := S1x512x1024) hz3]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]
/-- First tile: the accumulator was reset to the zero block, read back, and then holds the update over that zero block
    (the later of its two pieces covers the whole buffer). -/
theorem sout0_A_eq (hc0 : cond0_0 i) (hc1 : ¬cond0_1 i) :
    sout0_A (F := F) c i arg2 harg2 arg3 harg3 arg4 harg4 arg5 harg5 arg6 harg6 arg7 harg7 arg8 harg8 x0 x1 x2 x3 hc0 hc1 = k0_pay4 x0 x2 x3 (k0_pay1 (F := F)) := by
  unfold sout0_A
  rw [View.read_writes_eq_canon _ _ _ (scover0_A c i arg2 harg2 arg3 harg3 arg4 harg4 arg5 harg5 arg6 harg6 arg7 harg7 arg8 harg8 x0 x1 x2 x3 hc0 hc1)]
  unfold kernelRun0_A
  dsimp only
  sl_unfold_words
  rw [View.canon_cons_unit_zero (S := S1024x1024) hz2]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]

variable (xs : Vec F S1024x1024 .f32)

/-- Middle tile: the row-block output again holds the projection payload. -/
theorem out0_B_4_eq (hc0 : ¬cond0_0 i) (hc1 : ¬cond0_1 i) :
    out0_B_4 (F := F) c i arg2 harg2 arg3 harg3 arg4 harg4 arg5 harg5 arg6 harg6 arg7 harg7 arg8 harg8 x0 x1 x2 x3 xs hc0 hc1 = k0_pay3 x0 x1 := by
  unfold out0_B_4
  rw [View.read_writes_eq_canon _ _ _ (cover0_B_4 c i arg2 harg2 arg3 harg3 arg4 harg4 arg5 harg5 arg6 harg6 arg7 harg7 arg8 harg8 x0 x1 x2 x3 xs hc0 hc1)]
  unfold kernelRun0_B
  dsimp only
  sl_unfold_words
  rw [View.canon_unit_zero (S := S1x512x1024) hz3]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]
/-- Middle tile: the accumulator holds the update over what the tile before left. -/
theorem sout0_B_eq (hc0 : ¬cond0_0 i) (hc1 : ¬cond0_1 i) :
    sout0_B (F := F) c i arg2 harg2 arg3 harg3 arg4 harg4 arg5 harg5 arg6 harg6 arg7 harg7 arg8 harg8 x0 x1 x2 x3 xs hc0 hc1 = k0_pay4 x0 x2 x3 xs := by
  unfold sout0_B
  rw [View.read_writes_eq_canon _ _ _ (scover0_B c i arg2 harg2 arg3 harg3 arg4 harg4 arg5 harg5 arg6 harg6 arg7 harg7 arg8 harg8 x0 x1 x2 x3 xs hc0 hc1)]
  unfold kernelRun0_B
  dsimp only
  sl_unfold_words
  rw [View.canon_unit_zero (S := S1024x1024) hz2]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]
/-- Last tile: the row-block output holds the projection payload. -/
theorem out0_C_4_eq (hc0 : ¬cond0_0 i) (hc1 : cond0_1 i) :
    out0_C_4 (F := F) c i arg2 harg2 arg3 harg3 arg4 harg4 arg5 harg5 arg6 harg6 arg7 harg7 arg8 harg8 x0 x1 x2 x3 xs hc0 hc1 = k0_pay3 x0 x1 := by
  unfold out0_C_4
  rw [View.read_writes_eq_canon _ _ _ (cover0_C_4 c i arg2 harg2 arg3 harg3 arg4 harg4 arg5 harg5 arg6 harg6 arg7 harg7 arg8 harg8 x0 x1 x2 x3 xs hc0 hc1)]
  unfold kernelRun0_C
  dsimp only
  sl_unfold_words
  rw [View.canon_unit_zero (S := S1x512x1024) hz3]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]
/-- Last tile: the accumulator holds the update over what the tile before left. -/
theorem sout0_C_eq (hc0 : ¬cond0_0 i) (hc1 : cond0_1 i) :
    sout0_C (F := F) c i arg2 harg2 arg3 harg3 arg4 harg4 arg5 harg5 arg6 harg6 arg7 harg7 arg8 harg8 x0 x1 x2 x3 xs hc0 hc1 = k0_pay4 x0 x2 x3 xs := by
  unfold sout0_C
  rw [View.read_writes_eq_canon _ _ _ (scover0_C c i arg2 harg2 arg3 harg3 arg4 harg4 arg5 harg5 arg6 harg6 arg7 harg7 arg8 harg8 x0 x1 x2 x3 xs hc0 hc1)]
  unfold kernelRun0_C
  dsimp only
  sl_unfold_words
  rw [View.canon_unit_zero (S := S1024x1024) hz2]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]
/-- Last tile: the matrix output holds the accumulator, read after its update, narrowed and given a leading unit axis. -/
theorem out0_C_5_eq (hc0 : ¬cond0_0 i) (hc1 : cond0_1 i) :
    out0_C_5 (F := F) c i arg2 harg2 arg3 harg3 arg4 harg4 arg5 harg5 arg6 harg6 arg7 harg7 arg8 harg8 x0 x1 x2 x3 xs hc0 hc1 = k0_pay5 (k0_pay4 x0 x2 x3 xs) := by
  unfold out0_C_5
  rw [View.read_writes_eq_canon _ _ _ (cover0_C_5 c i arg2 harg2 arg3 harg3 arg4 harg4 arg5 harg5 arg6 harg6 arg7 harg7 arg8 harg8 x0 x1 x2 x3 xs hc0 hc1)]
  unfold kernelRun0_C
  dsimp only
  sl_unfold_words
  rw [View.canon_unit_zero (S := S1x1024x1024) hz3]
  simp only [View.readAt_eq_ld, harg2.read_unread, harg3.read_unread, harg4.read_unread, harg5.read_unread, harg8.read_unread, View.ld_unit_zero (S := S1x512x1024) hz3, View.ld_unit_zero (S := S1024x1024) hz2, View.readCov_unit_zero (S := S1024x1024) _ hz2]

end Pieces

/-! ## The payloads at an index, over the extended reals -/

/-! ### The two products' operand indices, axis by axis -/

/-- A row block times a square matrix: the left operand's row is the output's row … -/
theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … its column the contraction coordinate; -/
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand's row is the contraction coordinate … -/
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … its column the output's column. -/
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The same four facts for the product that contracts the 512 rows of a tile. -/
theorem lhs_gram_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_gram_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_gram_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_gram_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-! ### Each product at an index -/

/-- A [512,1024] block times a [1024,1024] matrix into the zero block, at (p, k): the sum over the shared axis. -/
theorem matmul_proj_apply (l : FVec Ideal S512x1024 .bf16) (r : FVec Ideal S1024x1024 .bf16) (p : Fin 512) (k : Fin 1024) :
    matmul (F := Ideal) dot_S512x1024_S1024x1024_S512x1024_1_0_0_1_n_n none l r (constant (F := Ideal) S512x1024 .f32 0x00000000#32) (ix2 p k)
      = ∑ d : Fin 1024, l (ix2 p d) * r (ix2 d k) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun d _ => ?_
  have hk := ValueIdx.contrEquiv1_symm_val dot_S512x1024_S1024x1024_S512x1024_1_0_0_1_n_n 1024 rfl rfl d
  have el : dot_S512x1024_S1024x1024_S512x1024_1_0_0_1_n_n.lhsIdx (ix2 p k) ((ValueIdx.contrEquiv1 dot_S512x1024_S1024x1024_S512x1024_1_0_0_1_n_n 1024 rfl rfl).symm d) = ix2 p d := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 p k) ((ValueIdx.contrEquiv1 dot_S512x1024_S1024x1024_S512x1024_1_0_0_1_n_n 1024 rfl rfl).symm d) = ix2 d k := funext fun a => Fin.ext (by
    match a with
    | ⟨0, _⟩ => exact (rhs_proj_0 _ _).trans hk
    | ⟨1, _⟩ => exact rhs_proj_1 _ _)
  rw [el, er]

/-- A [1024,512] matrix times a [512,1024] block into the zero block, at (k, v): the sum over the 512 shared rows. -/
theorem matmul_gram_apply (l : FVec Ideal S1024x512 .bf16) (r : FVec Ideal S512x1024 .bf16) (k v : Fin 1024) :
    matmul (F := Ideal) dot_S1024x512_S512x1024_S1024x1024_1_0_0_1_n_n none l r (constant (F := Ideal) S1024x1024 .f32 0x00000000#32) (ix2 k v)
      = ∑ p : Fin 512, l (ix2 k p) * r (ix2 p v) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun p _ => ?_
  have hk := ValueIdx.contrEquiv1_symm_val dot_S1024x512_S512x1024_S1024x1024_1_0_0_1_n_n 512 rfl rfl p
  have el : dot_S1024x512_S512x1024_S1024x1024_1_0_0_1_n_n.lhsIdx (ix2 k v) ((ValueIdx.contrEquiv1 dot_S1024x512_S512x1024_S1024x1024_1_0_0_1_n_n 512 rfl rfl).symm p) = ix2 k p := funext fun a => Fin.ext (by
    match a with
    | ⟨0, _⟩ => exact lhs_gram_0 _ _
    | ⟨1, _⟩ => exact (lhs_gram_1 _ _).trans hk)
  have er : dot_S1024x512_S512x1024_S1024x1024_1_0_0_1_n_n.rhsIdx (ix2 k v) ((ValueIdx.contrEquiv1 dot_S1024x512_S512x1024_S1024x1024_1_0_0_1_n_n 512 rfl rfl).symm p) = ix2 p v := funext fun a => Fin.ext (by
    match a with
    | ⟨0, _⟩ => exact (rhs_gram_0 _ _).trans hk
    | ⟨1, _⟩ => exact rhs_gram_1 _ _)
  rw [el, er]

/-- The x block with its leading unit axis dropped, times a weight matrix, at (p, k): the projection's sum. -/
theorem proj_apply (x0 : Vec Ideal S1x512x1024 .bf16) (w : FVec Ideal S1024x1024 .bf16) (p : Fin 512) (k : Fin 1024) :
    matmul (F := Ideal) dot_S512x1024_S1024x1024_S512x1024_1_0_0_1_n_n none (k0_pay2 (F := Ideal) x0)
        (shapeCast S1024x1024 w shapeCasts_S1024x1024_S1024x1024) (constant (F := Ideal) S512x1024 .f32 0x00000000#32) (ix2 p k)
      = ∑ d : Fin 1024, x0 (ix3 (0 : Fin 1) p d) * w (ix2 d k) := by
  refine (matmul_proj_apply _ _ p k).trans ?_
  refine Finset.sum_congr rfl fun d _ => ?_
  exact congrArg₂ (· * ·) (shapeCast_1ab_ab_apply x0 shapeCasts_S1x512x1024_S512x1024 p d)
    (congrFun (shapeCast_self w shapeCasts_S1024x1024_S1024x1024) (ix2 d k))

/-! ### The four payloads -/

/-- The reset block is zero everywhere. -/
theorem pay1_apply (k v : Fin 1024) : k0_pay1 (F := Ideal) (ix2 k v) = 0 := by
  unfold k0_pay1
  rw [shapeCast_self]
  exact Ideal.ofBits_zero_f32
/-- The row-block output at (0, r, k): row r of the x block against column k of the first weight matrix. -/
theorem pay3_apply (x0 : Vec Ideal S1x512x1024 .bf16) (x1 : Vec Ideal S1024x1024 .bf16) (r : Fin 512) (k : Fin 1024) :
    k0_pay3 (F := Ideal) x0 x1 (ix3 (0 : Fin 1) r k) = ∑ d : Fin 1024, x0 (ix3 (0 : Fin 1) r d) * x1 (ix2 d k) := by
  unfold k0_pay3
  refine (shapeCast_ab_1ab_apply _ _ (0 : Fin 1) r k).trans ?_
  exact proj_apply x0 x1 r k
/-- The accumulator's update at (k, v): what it held plus, over the tile's 512 rows, the product of the row's two
    projections (the first transposed, so its row index is the contraction's). -/
theorem pay4_apply (x0 : Vec Ideal S1x512x1024 .bf16) (x2 x3 : Vec Ideal S1024x1024 .bf16) (xs : Vec Ideal S1024x1024 .f32) (k v : Fin 1024) :
    k0_pay4 (F := Ideal) x0 x2 x3 xs (ix2 k v)
      = xs (ix2 k v) + ∑ r : Fin 512, (∑ d : Fin 1024, x0 (ix3 (0 : Fin 1) r d) * x2 (ix2 d k)) * (∑ d : Fin 1024, x0 (ix3 (0 : Fin 1) r d) * x3 (ix2 d v)) := by
  unfold k0_pay4
  rw [shapeCast_self]
  refine (addf_apply _ _ _).trans ?_
  refine congrArg (xs (ix2 k v) + ·) ?_
  refine (matmul_gram_apply _ _ k v).trans ?_
  refine Finset.sum_congr rfl fun r _ => ?_
  rw [transpose_ix2_apply]
  exact congrArg₂ (· * ·) (proj_apply x0 x2 r k) (proj_apply x0 x3 r v)
/-- The matrix output at (0, k, v) is the accumulator at (k, v). -/
theorem pay5_apply (a : Vec Ideal S1024x1024 .f32) (k v : Fin 1024) :
    k0_pay5 (F := Ideal) a (ix3 (0 : Fin 1) k v) = a (ix2 k v) := by
  unfold k0_pay5
  exact shapeCast_ab_1ab_apply _ _ (0 : Fin 1) k v

end Cert.KernelIdeal.Hand

end
-- ==== Proof.SpecParts.lean ====
/-
  The kernel's computation cut where the program cuts it: the first region produces Q = x·Wq and, per batch, the
  matrix Σ Kᵀ·V; the second region takes x, Q, those matrices and the output projection to the result.
-/
import proofs.«127309_j71511205478733_1_alg».proof.Proof.SpecIdx

noncomputable section

open scoped BigOperators

namespace Cert.Spec

open Idealize.ShloMosaic Idealize.ShloMosaic.ValueIdx

/-- A `[4, 1024, 1024]` array of extended reals as one matrix per batch. -/
def mats (M : (⟨3, ![4, 1024, 1024]⟩ : Shape).Idx → EReal) : Fin 4 → Mat := fun b k v => M (ix3 b k v)

/-- The second region's result from its four operands: `x + (Q·M_b)·P`. -/
def region1 (x Q : Act) (M : Fin 4 → Mat) (P : Mat) : Act := fun b s o =>
  x b s o + ∑ v : Fin 1024, (∑ k : Fin 1024, Q b s k * M b k v) * P v o

/-- The kernel's result is the second region's, fed the first region's two results. -/
theorem kernelOut_eq_region1 (x : Act) (Wq Wk Wv P : Mat) :
    kernelOut x Wq Wk Wv P = region1 x (proj x Wq) (fun b => accKV (proj x Wk) (proj x Wv) b 7) P := rfl

end Cert.Spec

end
-- ==== Proof.KiVal0b.lean ====
/-
  Region 0's three buffers after each grid point, as entries of the specification's arrays over the extended reals.
  Point t = 8·b + s reads rows 512·s … 512·s + 511 of batch b of x and all of Wq, Wk, Wv. The accumulator after
  point t is batch b's running sum of Kᵀ·V through tile s (zero plus tile 0 at a first tile, one tile more at each
  later one), by induction on the point; the row-block output is those rows of Q = x·Wq; and at a batch's last tile
  the matrix output is the batch's whole sum.
-/
import proofs.«127309_j71511205478733_1_alg».proof.Proof.KiVal0a
import proofs.«127309_j71511205478733_1_alg».proof.Proof.SpecParts
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The index maps over the 32 points -/

theorem idx0_0 : ∀ t : Fin cfg0.N, win0_0.index t 0 = t.val / 8 ∧ win0_0.index t 1 = t.val % 8 ∧ win0_0.index t 2 = 0 :=
  (by decide +kernel : ∀ t : Fin grid0.N, _)
theorem idx0_4 : ∀ t : Fin cfg0.N, win0_4.index t 0 = t.val / 8 ∧ win0_4.index t 1 = t.val % 8 ∧ win0_4.index t 2 = 0 :=
  (by decide +kernel : ∀ t : Fin grid0.N, _)
theorem idx0_5 : ∀ t : Fin cfg0.N, win0_5.index t 0 = t.val / 8 ∧ win0_5.index t 1 = 0 ∧ win0_5.index t 2 = 0 :=
  (by decide +kernel : ∀ t : Fin grid0.N, _)
theorem idx0_1 : ∀ t : Fin cfg0.N, win0_1.index t 0 = 0 ∧ win0_1.index t 1 = 0 :=
  (by decide +kernel : ∀ t : Fin grid0.N, _)
theorem idx0_2 : ∀ t : Fin cfg0.N, win0_2.index t 0 = 0 ∧ win0_2.index t 1 = 0 :=
  (by decide +kernel : ∀ t : Fin grid0.N, _)
theorem idx0_3 : ∀ t : Fin cfg0.N, win0_3.index t 0 = 0 ∧ win0_3.index t 1 = 0 :=
  (by decide +kernel : ∀ t : Fin grid0.N, _)

section Region0
variable (V : (c : Dev nD) → (b : Ref sig .tc) → Buf (Elt Ideal) ((c : Thread nD τ).loc b))

/-- The four input arrays as the region finds them, and their blocks at a point, at their literal types. -/
abbrev xarr (c : Dev nD) : Vec Ideal S4x4096x1024 .bf16 := V c main_v0
abbrev wqarr (c : Dev nD) : Vec Ideal S1024x1024 .bf16 := V c main_v1
abbrev wkarr (c : Dev nD) : Vec Ideal S1024x1024 .bf16 := V c main_v2
abbrev wvarr (c : Dev nD) : Vec Ideal S1024x1024 .bf16 := V c main_v3
abbrev xblk (c : Dev nD) (t : Fin cfg0.N) : Vec Ideal S1x512x1024 .bf16 := iblk0 V c 0 t
abbrev wqblk (c : Dev nD) (t : Fin cfg0.N) : Vec Ideal S1024x1024 .bf16 := iblk0 V c 1 t
abbrev wkblk (c : Dev nD) (t : Fin cfg0.N) : Vec Ideal S1024x1024 .bf16 := iblk0 V c 2 t
abbrev wvblk (c : Dev nD) (t : Fin cfg0.N) : Vec Ideal S1024x1024 .bf16 := iblk0 V c 3 t

/-- Element (0, r, d) of the x block at point t is x at batch t / 8, row 512·(t % 8) + r, column d. -/
theorem xblk_apply (c : Dev nD) (t : Fin cfg0.N) (r : Fin 512) (d : Fin 1024) (b : Fin 4) (s : Fin 4096)
    (hb : b.val = t.val / 8) (hs : s.val = 512 * (t.val % 8) + r.val) :
    xblk V c t (ix3 (0 : Fin 1) r d) = xarr V c (ix3 b s d) := by
  obtain ⟨e0, e1, e2⟩ := idx0_0 t
  show V c main_v0 (((cfg0.win 0).blk t).view.emb (ix3 (0 : Fin 1) r d)) = V c main_v0 (ix3 b s d)
  refine congrArg (V c main_v0) ?_
  funext a; apply Fin.ext
  match a with
  | ⟨0, _⟩ => show win0_0.index t 0 * 1 + 1 * (0 : Fin 1).val = b.val; rw [e0, hb]; simp
  | ⟨1, _⟩ => show win0_0.index t 1 * 512 + 1 * r.val = s.val; rw [e1, hs]; omega
  | ⟨2, _⟩ => show win0_0.index t 2 * 1024 + 1 * d.val = d.val; rw [e2]; omega

/-- A weight matrix's block at any point is the whole matrix. -/
theorem wqblk_apply (c : Dev nD) (t : Fin cfg0.N) (d k : Fin 1024) :
    wqblk V c t (ix2 d k) = wqarr V c (ix2 d k) := by
  obtain ⟨e0, e1⟩ := idx0_1 t
  show V c main_v1 (((cfg0.win 1).blk t).view.emb (ix2 d k)) = V c main_v1 (ix2 d k)
  refine congrArg (V c main_v1) ?_
  funext a; apply Fin.ext
  match a with
  | ⟨0, _⟩ => show win0_1.index t 0 * 1024 + 1 * d.val = d.val; rw [e0]; omega
  | ⟨1, _⟩ => show win0_1.index t 1 * 1024 + 1 * k.val = k.val; rw [e1]; omega
theorem wkblk_apply (c : Dev nD) (t : Fin cfg0.N) (d k : Fin 1024) :
    wkblk V c t (ix2 d k) = wkarr V c (ix2 d k) := by
  obtain ⟨e0, e1⟩ := idx0_2 t
  show V c main_v2 (((cfg0.win 2).blk t).view.emb (ix2 d k)) = V c main_v2 (ix2 d k)
  refine congrArg (V c main_v2) ?_
  funext a; apply Fin.ext
  match a with
  | ⟨0, _⟩ => show win0_2.index t 0 * 1024 + 1 * d.val = d.val; rw [e0]; omega
  | ⟨1, _⟩ => show win0_2.index t 1 * 1024 + 1 * k.val = k.val; rw [e1]; omega
theorem wvblk_apply (c : Dev nD) (t : Fin cfg0.N) (d k : Fin 1024) :
    wvblk V c t (ix2 d k) = wvarr V c (ix2 d k) := by
  obtain ⟨e0, e1⟩ := idx0_3 t
  show V c main_v3 (((cfg0.win 3).blk t).view.emb (ix2 d k)) = V c main_v3 (ix2 d k)
  refine congrArg (V c main_v3) ?_
  funext a; apply Fin.ext
  match a with
  | ⟨0, _⟩ => show win0_3.index t 0 * 1024 + 1 * d.val = d.val; rw [e0]; omega
  | ⟨1, _⟩ => show win0_3.index t 1 * 1024 + 1 * k.val = k.val; rw [e1]; omega

/-! ## The accumulator after each point -/

/-- K = x·Wk and V = x·Wv over the whole arrays, by coordinates. -/
abbrev Kact (c : Dev nD) : Cert.Spec.Act := Cert.Spec.proj (Cert.Spec.act (xarr V c)) (Cert.Spec.mat (wkarr V c))
abbrev Vact (c : Dev nD) : Cert.Spec.Act := Cert.Spec.proj (Cert.Spec.act (xarr V c)) (Cert.Spec.mat (wvarr V c))

theorem tileRow_val (j : ℕ) (hj : j < 8) (r : Fin 512) : (Cert.Spec.tileRow j r).val = 512 * j + r.val := by
  show (512 * j + r.val) % 4096 = 512 * j + r.val
  have := r.isLt
  omega

/-- The body's contraction over the tile's 512 rows is the tile's share of Kᵀ·V. -/
theorem tile_eq (c : Dev nD) (t : Fin cfg0.N) (b : Fin 4) (hb : b.val = t.val / 8) (j : ℕ) (hj : j = t.val % 8) (k v : Fin 1024) :
    (∑ r : Fin 512, (∑ d : Fin 1024, xblk V c t (ix3 (0 : Fin 1) r d) * wkblk V c t (ix2 d k)) * (∑ d : Fin 1024, xblk V c t (ix3 (0 : Fin 1) r d) * wvblk V c t (ix2 d v)))
      = Cert.Spec.tileKV (Kact V c) (Vact V c) b j k v := by
  have hj8 : j < 8 := by omega
  show _ = ∑ r : Fin 512, (∑ d : Fin 1024, xarr V c (ix3 b (Cert.Spec.tileRow j r) d) * wkarr V c (ix2 d k)) * (∑ d : Fin 1024, xarr V c (ix3 b (Cert.Spec.tileRow j r) d) * wvarr V c (ix2 d v))
  refine Finset.sum_congr rfl fun r _ => ?_
  have hs : (Cert.Spec.tileRow j r).val = 512 * (t.val % 8) + r.val := by rw [tileRow_val j hj8 r, hj]
  have e1 : ∀ d : Fin 1024, xblk V c t (ix3 (0 : Fin 1) r d) = xarr V c (ix3 b (Cert.Spec.tileRow j r) d) := fun d => xblk_apply V c t r d b _ hb hs
  have e2 : ∀ d : Fin 1024, wkblk V c t (ix2 d k) = wkarr V c (ix2 d k) := fun d => wkblk_apply V c t d k
  have e3 : ∀ d : Fin 1024, wvblk V c t (ix2 d v) = wvarr V c (ix2 d v) := fun d => wvblk_apply V c t d v
  simp only [e1, e2, e3]

/-- At a batch's first tile the accumulator is reset and ends at zero plus the tile's share. -/
theorem acc_first (c : Dev nD) (t : Fin cfg0.N) (h0 : t.val % 8 = 0) (b : Fin 4) (hb : b.val = t.val / 8) (k v : Fin 1024) :
    (outsAt0 V c t.val t.isLt).2.2 (ix2 k v) = Cert.Spec.accKV (Kact V c) (Vact V c) b 0 k v := by
  have h1 : ¬t.val % 8 = 7 := by omega
  rw [outsAt0_A V c t h0 h1]
  unfold ptA
  dsimp only
  rw [sout0_A_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((hcond0_0 t).mpr h0) (fun h => h1 ((hcond0_1 t).mp h))]
  refine (pay4_apply (xblk V c t) (wkblk V c t) (wvblk V c t) (k0_pay1 (F := Ideal)) k v).trans ?_
  rw [pay1_apply, tile_eq V c t b hb 0 (by omega) k v]
  rfl

/-- At a later tile the accumulator ends at what the tile before left plus the tile's share. -/
theorem acc_mid (c : Dev nD) (t : Fin cfg0.N) (h0 : ¬t.val % 8 = 0) (h1 : ¬t.val % 8 = 7) (b : Fin 4) (hb : b.val = t.val / 8)
    (j : ℕ) (hj : j + 1 = t.val % 8) (k v : Fin 1024)
    (ih : ((outsAt0 V c (t.val - 1) (Nat.lt_of_le_of_lt (Nat.sub_le _ _) t.isLt)).2.2) (ix2 k v) = Cert.Spec.accKV (Kact V c) (Vact V c) b j k v) :
    (outsAt0 V c t.val t.isLt).2.2 (ix2 k v) = Cert.Spec.accKV (Kact V c) (Vact V c) b (j + 1) k v := by
  rw [outsAt0_B V c t h0 h1]
  unfold ptB
  dsimp only
  rw [sout0_B_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((outsAt0 V c (t.val - 1) (Nat.lt_of_le_of_lt (Nat.sub_le _ _) t.isLt)).2.2) (fun h => h0 ((hcond0_0 t).mp h)) (fun h => h1 ((hcond0_1 t).mp h))]
  refine (pay4_apply (xblk V c t) (wkblk V c t) (wvblk V c t) ((outsAt0 V c (t.val - 1) (Nat.lt_of_le_of_lt (Nat.sub_le _ _) t.isLt)).2.2) k v).trans ?_
  rw [ih, tile_eq V c t b hb (j + 1) hj k v]
  rfl

theorem acc_last (c : Dev nD) (t : Fin cfg0.N) (h0 : ¬t.val % 8 = 0) (h1 : t.val % 8 = 7) (b : Fin 4) (hb : b.val = t.val / 8)
    (j : ℕ) (hj : j + 1 = t.val % 8) (k v : Fin 1024)
    (ih : ((outsAt0 V c (t.val - 1) (Nat.lt_of_le_of_lt (Nat.sub_le _ _) t.isLt)).2.2) (ix2 k v) = Cert.Spec.accKV (Kact V c) (Vact V c) b j k v) :
    (outsAt0 V c t.val t.isLt).2.2 (ix2 k v) = Cert.Spec.accKV (Kact V c) (Vact V c) b (j + 1) k v := by
  rw [outsAt0_C V c t h0 h1]
  unfold ptC
  dsimp only
  rw [sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((outsAt0 V c (t.val - 1) (Nat.lt_of_le_of_lt (Nat.sub_le _ _) t.isLt)).2.2) (fun h => h0 ((hcond0_0 t).mp h)) ((hcond0_1 t).mpr h1)]
  refine (pay4_apply (xblk V c t) (wkblk V c t) (wvblk V c t) ((outsAt0 V c (t.val - 1) (Nat.lt_of_le_of_lt (Nat.sub_le _ _) t.isLt)).2.2) k v).trans ?_
  rw [ih, tile_eq V c t b hb (j + 1) hj k v]
  rfl

/-- THE INVARIANT: after point n the accumulator holds batch n / 8's running sum through tile n % 8. -/
theorem acc_inv (c : Dev nD) : ∀ (n : ℕ) (hn : n < cfg0.N) (b : Fin 4) (j : ℕ), b.val = n / 8 → j = n % 8 → ∀ k v : Fin 1024,
    (outsAt0 V c n hn).2.2 (ix2 k v) = Cert.Spec.accKV (Kact V c) (Vact V c) b j k v := by
  intro n
  induction n with
  | zero =>
    intro hn b j hb hj k v
    subst hj
    exact acc_first V c ⟨0, hn⟩ rfl b hb k v
  | succ n ih =>
    intro hn b j hb hj k v
    by_cases h0 : (n + 1) % 8 = 0
    · obtain rfl : j = 0 := by omega
      exact acc_first V c ⟨n + 1, hn⟩ h0 b hb k v
    · obtain ⟨j', rfl⟩ : ∃ j', j = j' + 1 := ⟨j - 1, by omega⟩
      have ihn := ih (Nat.lt_of_succ_lt hn) b j' (by omega) (by omega) k v
      by_cases h1 : (n + 1) % 8 = 7
      · exact acc_last V c ⟨n + 1, hn⟩ h0 h1 b hb j' hj k v ihn
      · exact acc_mid V c ⟨n + 1, hn⟩ h0 h1 b hb j' hj k v ihn

/-! ## The two outputs at a point -/

/-- Whatever the control case, the row-block output after point t is the x block projected by Wq. -/
theorem out4_apply (c : Dev nD) (t : Fin cfg0.N) (r : Fin 512) (k : Fin 1024) (b : Fin 4) (s : Fin 4096)
    (hb : b.val = t.val / 8) (hs : s.val = 512 * (t.val % 8) + r.val) :
    (outsAt0 V c t.val t.isLt).1 (ix3 (0 : Fin 1) r k) = ∑ d : Fin 1024, xarr V c (ix3 b s d) * wqarr V c (ix2 d k) := by
  have e1 : ∀ d : Fin 1024, xblk V c t (ix3 (0 : Fin 1) r d) = xarr V c (ix3 b s d) := fun d => xblk_apply V c t r d b s hb hs
  have e2 : ∀ d : Fin 1024, wqblk V c t (ix2 d k) = wqarr V c (ix2 d k) := fun d => wqblk_apply V c t d k
  by_cases h0 : t.val % 8 = 0
  · have h1 : ¬t.val % 8 = 7 := by omega
    rw [outsAt0_A V c t h0 h1]
    unfold ptA
    dsimp only
    rw [out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((hcond0_0 t).mpr h0) (fun h => h1 ((hcond0_1 t).mp h))]
    refine (pay3_apply (xblk V c t) (wqblk V c t) r k).trans ?_
    simp only [e1, e2]
  · by_cases h1 : t.val % 8 = 7
    · rw [outsAt0_C V c t h0 h1]
      unfold ptC
      dsimp only
      rw [out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((outsAt0 V c (t.val - 1) (Nat.lt_of_le_of_lt (Nat.sub_le _ _) t.isLt)).2.2) (fun h => h0 ((hcond0_0 t).mp h)) ((hcond0_1 t).mpr h1)]
      refine (pay3_apply (xblk V c t) (wqblk V c t) r k).trans ?_
      simp only [e1, e2]
    · rw [outsAt0_B V c t h0 h1]
      unfold ptB
      dsimp only
      rw [out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((outsAt0 V c (t.val - 1) (Nat.lt_of_le_of_lt (Nat.sub_le _ _) t.isLt)).2.2) (fun h => h0 ((hcond0_0 t).mp h)) (fun h => h1 ((hcond0_1 t).mp h))]
      refine (pay3_apply (xblk V c t) (wqblk V c t) r k).trans ?_
      simp only [e1, e2]

/-- At a batch's last tile the matrix output is the accumulator after that tile: the batch's whole sum. -/
theorem out5_apply (c : Dev nD) (t : Fin cfg0.N) (h1 : t.val % 8 = 7) (b : Fin 4) (hb : b.val = t.val / 8) (k v : Fin 1024) :
    (outsAt0 V c t.val t.isLt).2.1 (ix3 (0 : Fin 1) k v) = Cert.Spec.accKV (Kact V c) (Vact V c) b 7 k v := by
  have h0 : ¬t.val % 8 = 0 := by omega
  have hacc := acc_inv V c t.val t.isLt b 7 hb h1.symm k v
  rw [outsAt0_C V c t h0 h1] at hacc ⊢
  unfold ptC at hacc ⊢
  dsimp only at hacc ⊢
  rw [sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((outsAt0 V c (t.val - 1) (Nat.lt_of_le_of_lt (Nat.sub_le _ _) t.isLt)).2.2) (fun h => h0 ((hcond0_0 t).mp h)) ((hcond0_1 t).mpr h1)] at hacc
  rw [out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk0 V c 0 t) (iblk0 V c 1 t) (iblk0 V c 2 t) (iblk0 V c 3 t) ((outsAt0 V c (t.val - 1) (Nat.lt_of_le_of_lt (Nat.sub_le _ _) t.isLt)).2.2) (fun h => h0 ((hcond0_0 t).mp h)) ((hcond0_1 t).mpr h1)]
  exact (pay5_apply _ k v).trans hacc

end Region0

end Cert.KernelIdeal.Hand

end
-- ==== Proof.KiVal0.lean ====
/-
  Region 0's two output arrays after the region. Every point writes back its 512 rows of Q = x·Wq, and the 32 blocks
  tile the [4, 4096, 1024] array; the last point of each batch writes back that batch's sum of Kᵀ·V over the eight
  tiles, and those four blocks tile the [4, 1024, 1024] array. So the first array ends holding Q and the second the
  per-batch matrices.
-/
import proofs.«127309_j71511205478733_1_alg».proof.Proof.KiVal0b
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section Region0
variable (V : (c : Dev nD) → (b : Ref sig .tc) → Buf (Elt Ideal) ((c : Thread nD τ).loc b))

/-! ## What each point writes back, and the arrays after the region -/

/-- Q = x·Wq and, per batch, the whole sum of Kᵀ·V, as contents of the two output arrays. -/
abbrev Gq (c : Dev nD) : Vec Ideal S4x4096x1024 .bf16 :=
  fun i => Cert.Spec.proj (Cert.Spec.act (xarr V c)) (Cert.Spec.mat (wqarr V c)) (i 0) (i 1) (i 2)
abbrev Gm (c : Dev nD) : Vec Ideal S4x1024x1024 .bf16 :=
  fun i => Cert.Spec.accKV (Kact V c) (Vact V c) (i 0) 7 (i 1) (i 2)

/-- Point t = 8·b + s writes back rows 512·s … 512·s + 511 of batch b of Q. -/
theorem flushed4_eq (c : Dev nD) (t : Fin cfg0.N) :
    (dat0 (F := Ideal) V c).flushed 4 t = ((cfg0.win 4).blk t).view.read (Elt Ideal) (Gq V c) := by
  show (cfg0.win 4).cut (grid0.coords t) ((dat0 V c).after 4 t) = _
  rw [after0_4]
  obtain ⟨e0, e1, e2⟩ := idx0_4 t
  have hN : t.val < 32 := lt_of_lt_of_eq t.isLt N_0
  funext y
  have hy0 : (y 0).val < 1 := (y 0).isLt
  have hy1 : (y 1).val < 512 := (y 1).isLt
  have hy2 : (y 2).val < 1024 := (y 2).isLt
  have eL : (cfg0.win 4).xinj (grid0.coords t) y = ix3 (0 : Fin 1) (⟨(y 1).val, hy1⟩ : Fin 512) (⟨(y 2).val, hy2⟩ : Fin 1024) := by
    funext a; apply Fin.ext
    match a with
    | ⟨0, _⟩ => show (y 0).val = 0; omega
    | ⟨1, _⟩ => rfl
    | ⟨2, _⟩ => rfl
  have eR : ((cfg0.win 4).blk t).view.emb y = ix3 (⟨t.val / 8, by omega⟩ : Fin 4) (⟨512 * (t.val % 8) + (y 1).val, by omega⟩ : Fin 4096) (⟨(y 2).val, hy2⟩ : Fin 1024) := by
    funext a; apply Fin.ext
    match a with
    | ⟨0, _⟩ => show win0_4.index t 0 * 1 + 1 * (y 0).val = t.val / 8; rw [e0]; omega
    | ⟨1, _⟩ => show win0_4.index t 1 * 512 + 1 * (y 1).val = 512 * (t.val % 8) + (y 1).val; rw [e1]; omega
    | ⟨2, _⟩ => show win0_4.index t 2 * 1024 + 1 * (y 2).val = (y 2).val; rw [e2]; omega
  show (outsAt0 V c t.val t.isLt).1 ((cfg0.win 4).xinj (grid0.coords t) y) = Gq V c (((cfg0.win 4).blk t).view.emb y)
  rw [eL, eR]
  exact out4_apply V c t _ _ _ _ rfl rfl

/-- A batch's last point writes back the batch's whole matrix. -/
theorem flushed5_eq (c : Dev nD) (t : Fin cfg0.N) (hf : (cfg0.win 5).flush t = true) :
    (dat0 (F := Ideal) V c).flushed 5 t = ((cfg0.win 5).blk t).view.read (Elt Ideal) (Gm V c) := by
  have h1 : t.val % 8 = 7 := (flush0_5 t).mp hf
  show (cfg0.win 5).cut (grid0.coords t) ((dat0 V c).after 5 t) = _
  rw [after0_5]
  obtain ⟨e0, e1, e2⟩ := idx0_5 t
  have hN : t.val < 32 := lt_of_lt_of_eq t.isLt N_0
  funext y
  have hy0 : (y 0).val < 1 := (y 0).isLt
  have hy1 : (y 1).val < 1024 := (y 1).isLt
  have hy2 : (y 2).val < 1024 := (y 2).isLt
  have eL : (cfg0.win 5).xinj (grid0.coords t) y = ix3 (0 : Fin 1) (⟨(y 1).val, hy1⟩ : Fin 1024) (⟨(y 2).val, hy2⟩ : Fin 1024) := by
    funext a; apply Fin.ext
    match a with
    | ⟨0, _⟩ => show (y 0).val = 0; omega
    | ⟨1, _⟩ => rfl
    | ⟨2, _⟩ => rfl
  have eR : ((cfg0.win 5).blk t).view.emb y = ix3 (⟨t.val / 8, by omega⟩ : Fin 4) (⟨(y 1).val, hy1⟩ : Fin 1024) (⟨(y 2).val, hy2⟩ : Fin 1024) := by
    funext a; apply Fin.ext
    match a with
    | ⟨0, _⟩ => show win0_5.index t 0 * 1 + 1 * (y 0).val = t.val / 8; rw [e0]; omega
    | ⟨1, _⟩ => show win0_5.index t 1 * 1024 + 1 * (y 1).val = (y 1).val; rw [e1]; omega
    | ⟨2, _⟩ => show win0_5.index t 2 * 1024 + 1 * (y 2).val = (y 2).val; rw [e2]; omega
  show (outsAt0 V c t.val t.isLt).2.1 ((cfg0.win 5).xinj (grid0.coords t) y) = Gm V c (((cfg0.win 5).blk t).view.emb y)
  rw [eL, eR]
  exact out5_apply V c t h1 _ rfl _ _

/-- An index of an output array is in point t's block iff each coordinate is in the block's range on its axis. -/
theorem mem_blk4 (t : Fin cfg0.N) (i : S4x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v5_0).slice (win0_4.rect t)).set ↔ _
  rw [View.set_slice_whole, Rect.mem_set_unit]
  exact Iff.rfl
theorem mem_blk5 (t : Fin cfg0.N) (i : S4x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v5_1).slice (win0_5.rect t)).set ↔ _
  rw [View.set_slice_whole, Rect.mem_set_unit]
  exact Iff.rfl

/-- Row s of batch b lies in the block of point 8·b + s / 512. -/
theorem cover4 (i : S4x4096x1024.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 1024 := (i 2).isLt
  have hN : cfg0.N = 32 := N_0
  obtain ⟨t, tv⟩ : ∃ t : Fin cfg0.N, t.val = 8 * (i 0).val + (i 1).val / 512 := ⟨⟨8 * (i 0).val + (i 1).val / 512, by omega⟩, rfl⟩
  obtain ⟨e0, e1, e2⟩ := idx0_4 t
  refine ⟨t, flush0_4 t, ?_⟩
  rw [mem_blk4]
  intro a
  match a with
  | ⟨0, _⟩ => show win0_4.index t 0 * 1 ≤ (i 0).val ∧ (i 0).val < win0_4.index t 0 * 1 + 1; rw [e0, tv]; omega
  | ⟨1, _⟩ => show win0_4.index t 1 * 512 ≤ (i 1).val ∧ (i 1).val < win0_4.index t 1 * 512 + 512; rw [e1, tv]; omega
  | ⟨2, _⟩ => show win0_4.index t 2 * 1024 ≤ (i 2).val ∧ (i 2).val < win0_4.index t 2 * 1024 + 1024; rw [e2]; omega

/-- Batch b's matrix lies in the block of the batch's last point, 8·b + 7. -/
theorem cover5 (i : S4x1024x1024.Idx) : ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 1024 := (i 2).isLt
  have hN : cfg0.N = 32 := N_0
  obtain ⟨t, tv⟩ : ∃ t : Fin cfg0.N, t.val = 8 * (i 0).val + 7 := ⟨⟨8 * (i 0).val + 7, by omega⟩, rfl⟩
  obtain ⟨e0, e1, e2⟩ := idx0_5 t
  refine ⟨t, (flush0_5 t).mpr (by omega), ?_⟩
  rw [mem_blk5]
  intro a
  match a with
  | ⟨0, _⟩ => show win0_5.index t 0 * 1 ≤ (i 0).val ∧ (i 0).val < win0_5.index t 0 * 1 + 1; rw [e0, tv]; omega
  | ⟨1, _⟩ => show win0_5.index t 1 * 1024 ≤ (i 1).val ∧ (i 1).val < win0_5.index t 1 * 1024 + 1024; rw [e1]; omega
  | ⟨2, _⟩ => show win0_5.index t 2 * 1024 ≤ (i 2).val ∧ (i 2).val < win0_5.index t 2 * 1024 + 1024; rw [e2]; omega

/-- After region 0 the first output array holds Q = x·Wq. -/
theorem val0_q (c : Dev nD) :
    (dat0 (F := Ideal) V c).arrAt 4 cfg0.N
      = fun i => Cert.Spec.proj (Cert.Spec.act (V c main_v0)) (Cert.Spec.mat (V c main_v1)) (i 0) (i 1) (i 2) :=
  (dat0 (F := Ideal) V c).arrAt_eq_of_cover 4 (Gq V c) (fun t _ => flushed4_eq V c t) cover4

/-- After region 0 the second output array holds, per batch, the sum of Kᵀ·V over the eight tiles. -/
theorem val0_m (c : Dev nD) :
    (dat0 (F := Ideal) V c).arrAt 5 cfg0.N
      = fun i => Cert.Spec.accKV (Cert.Spec.proj (Cert.Spec.act (V c main_v0)) (Cert.Spec.mat (V c main_v2))) (Cert.Spec.proj (Cert.Spec.act (V c main_v0)) (Cert.Spec.mat (V c main_v3))) (i 0) 7 (i 1) (i 2) :=
  (dat0 (F := Ideal) V c).arrAt_eq_of_cover 5 (Gm V c) (flushed5_eq V c) cover5

end Region0

end Cert.KernelIdeal.Hand

end
-- ==== Proof.KiVal1a.lean ====
/-
  What one grid point of the second region stores, entry by entry. The body multiplies its 512 rows of `Q` by the
  batch's summed matrix, the product by the output projection, and adds its rows of `x`; each product accumulates
  from zero, and the changes of float format between them are the identity on the extended reals. So the entry at row
  `r`, column `o` of the stored block is `x[r,o] + Σ_v (Σ_k Q[r,k]·M[k,v])·P[v,o]`.
-/
import proofs.«127309_j71511205478733_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Reg1Val

open Cert.KernelIdeal Cert.KernelIdeal.Gen
open Idealize.ShloMosaic Idealize.ShloMosaic.ValueIdx
open scoped BigOperators

/-! ## One matrix product at an index -/

theorem mm_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512×1024 by 1024×1024 product into a zero accumulator, at row `p` and column `q`: the sum over the shared axis. -/
theorem matmul_at {φ₁ φ₂ : FTy} (l : FVec Ideal S512x1024 φ₁) (r : FVec Ideal S1024x1024 φ₂) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-! ## The body's arithmetic at an index -/

/-- What one grid point stores, at row `r` and column `o` of its block: the `x` entry plus the row of `Q` times the
    batch's matrix, times the output projection. Format changes are the identity on the extended reals, and the two
    products accumulate from zero. -/
theorem pay1_at (x0 : Vec Ideal S1x512x1024 .bf16) (x1 : Vec Ideal S1x1024x1024 .bf16) (x2 : Vec Ideal S1024x1024 .bf16)
    (x3 : Vec Ideal S1x512x1024 .f32) (r : Fin 512) (o : Fin 1024) :
    (k1_pay1 x0 x1 x2 x3 (ix3 (0 : Fin 1) r o) : EReal)
      = (x3 (ix3 (0 : Fin 1) r o) : EReal)
        + ∑ v : Fin 1024, (∑ k : Fin 1024, (x0 (ix3 (0 : Fin 1) r k) : EReal) * (x1 (ix3 (0 : Fin 1) k v) : EReal)) * (x2 (ix2 v o) : EReal) := by
  unfold k1_pay1
  refine (shapeCast_ab_1ab_apply _ _ (0 : Fin 1) r o).trans ?_
  refine (addf_apply _ _ _).trans ?_
  refine congrArg₂ (· + ·) (shapeCast_1ab_ab_apply x3 _ r o) ?_
  refine (matmul_at _ _ r o).trans ?_
  refine Finset.sum_congr rfl fun v _ => ?_
  refine congrArg₂ (· * ·) ?_ ?_
  · refine (truncf_apply (φ := .f32) (ψ := .bf16) _ bitsLt_bf16_f32 (ix2 r v)).trans ?_
    refine (matmul_at _ _ r v).trans ?_
    refine Finset.sum_congr rfl fun k _ => ?_
    exact congrArg₂ (· * ·) (shapeCast_1ab_ab_apply x0 _ r k) (shapeCast_1ab_ab_apply x1 _ k v)
  · exact congrFun (shapeCast_self x2 _) (ix2 v o)

/-- A block-sized function that agrees with the body's arithmetic at every row and column is what the body stores. -/
theorem pay1_eq (x0 : Vec Ideal S1x512x1024 .bf16) (x1 : Vec Ideal S1x1024x1024 .bf16) (x2 : Vec Ideal S1024x1024 .bf16)
    (x3 : Vec Ideal S1x512x1024 .f32) (Gb : S1x512x1024.Idx → EReal)
    (h : ∀ (r : Fin 512) (o : Fin 1024), Gb (ix3 (0 : Fin 1) r o) = (x3 (ix3 (0 : Fin 1) r o) : EReal)
        + ∑ v : Fin 1024, (∑ k : Fin 1024, (x0 (ix3 (0 : Fin 1) r k) : EReal) * (x1 (ix3 (0 : Fin 1) k v) : EReal)) * (x2 (ix2 v o) : EReal)) :
    k1_pay1 x0 x1 x2 x3 = Gb := by
  funext j
  obtain ⟨u, r, o, rfl⟩ : ∃ (u : Fin 1) (r : Fin 512) (o : Fin 1024), j = ix3 u r o := ⟨j 0, j 1, j 2, eq_ix3 j⟩
  obtain rfl : u = 0 := Subsingleton.elim _ _
  exact (pay1_at x0 x1 x2 x3 r o).trans (h r o).symm

end Cert.KernelIdeal.Hand.Reg1Val

end
-- ==== Proof.KiVal1.lean ====
/-
  The second region's result array, read as mathematics. Each of its 32 grid points (batch `t / 8`, row tile `t % 8`)
  takes 512 rows of `Q` and of `x`, the batch's summed matrix `M_b` and the output projection `P`, and stores
  `x + (Q·M_b)·P` on those rows. Every input block is its array read on the rows the output block names, so what a
  point writes back is its block of ONE function of the four arrays; the 32 row blocks tile the array, so after the
  region the array is that function, index by index.
-/
import proofs.«127309_j71511205478733_1_alg».proof.Proof.KiR1
import proofs.«127309_j71511205478733_1_alg».proof.Proof.KiVal1a
import proofs.«127309_j71511205478733_1_alg».proof.Proof.SpecParts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

namespace Reg1Val

/-! ## From the blocks to the array -/

section
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The four arrays the region reads, as it finds them: `x`, `Q`, the per-batch matrices and the output projection. -/
abbrev xArr (c : Dev nD) : S4x4096x1024.Idx → EReal := V c main_arg0
abbrev qArr (c : Dev nD) : S4x4096x1024.Idx → EReal := V c main_v5_0
abbrev mArr (c : Dev nD) : S4x1024x1024.Idx → EReal := V c main_v5_1
abbrev pArr (c : Dev nD) : S1024x1024.Idx → EReal := V c main_v4

/-- The region's result as one function of those arrays, index by index. -/
def G1 (c : Dev nD) : S4x4096x1024.Idx → EReal := fun i =>
  Cert.Spec.region1 (Cert.Spec.act (xArr V c)) (Cert.Spec.act (qArr V c)) (Cert.Spec.mats (mArr V c)) (Cert.Spec.mat (pArr V c)) (i 0) (i 1) (i 2)

theorem G1_at (c : Dev nD) (b : Fin 4) (s : Fin 4096) (o : Fin 1024) :
    G1 V c (ix3 b s o) = xArr V c (ix3 b s o)
      + ∑ v : Fin 1024, (∑ k : Fin 1024, qArr V c (ix3 b s k) * mArr V c (ix3 b k v)) * pArr V c (ix2 v o) := rfl

/-- The index maps over the 32 grid points: point `t` is batch `t / 8`, row tile `t % 8`; the matrices move with the batch
    only and the projection not at all. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val / 8 ∧ win1_3.index t (1 : Fin 3) = t.val % 8 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-- Point `t`'s block of `Q`: rows `512·(t % 8) …` of batch `t / 8`. -/
theorem blk0_at (c : Dev nD) (t : Fin cfg1.N) (r : Fin 512) (k : Fin 1024) (b : Fin 4) (s : Fin 4096)
    (hb : b.val = t.val / 8) (hs : s.val = 512 * (t.val % 8) + r.val) :
    (iblk1 V c 0 t : Vec Ideal S1x512x1024 .bf16) (ix3 (0 : Fin 1) r k) = qArr V c (ix3 b s k) := by
  obtain ⟨e0, e1, e2, -⟩ := idx_facts1 t
  unfold iblk1
  rw [View.read_apply]
  show V c main_v5_0 _ = V c main_v5_0 _
  congr 1
  funext a; apply Fin.ext
  match a with
  | ⟨0, _⟩ => show win1_0.index t (0 : Fin 3) * 1 + 1 * 0 = b.val; omega
  | ⟨1, _⟩ => show win1_0.index t (1 : Fin 3) * 512 + 1 * r.val = s.val; omega
  | ⟨2, _⟩ => show win1_0.index t (2 : Fin 3) * 1024 + 1 * k.val = k.val; omega

/-- Point `t`'s block of the summed matrices: all of batch `t / 8`'s. -/
theorem blk1_at (c : Dev nD) (t : Fin cfg1.N) (k v : Fin 1024) (b : Fin 4) (hb : b.val = t.val / 8) :
    (iblk1 V c 1 t : Vec Ideal S1x1024x1024 .bf16) (ix3 (0 : Fin 1) k v) = mArr V c (ix3 b k v) := by
  obtain ⟨-, -, -, e0, e1, e2, -⟩ := idx_facts1 t
  unfold iblk1
  rw [View.read_apply]
  show V c main_v5_1 _ = V c main_v5_1 _
  congr 1
  funext a; apply Fin.ext
  match a with
  | ⟨0, _⟩ => show win1_1.index t (0 : Fin 3) * 1 + 1 * 0 = b.val; omega
  | ⟨1, _⟩ => show win1_1.index t (1 : Fin 3) * 1024 + 1 * k.val = k.val; omega
  | ⟨2, _⟩ => show win1_1.index t (2 : Fin 3) * 1024 + 1 * v.val = v.val; omega

/-- Every point's block of the output projection is the whole matrix. -/
theorem blk2_at (c : Dev nD) (t : Fin cfg1.N) (v o : Fin 1024) :
    (iblk1 V c 2 t : Vec Ideal S1024x1024 .bf16) (ix2 v o) = pArr V c (ix2 v o) := by
  obtain ⟨-, -, -, -, -, -, e0, e1, -⟩ := idx_facts1 t
  unfold iblk1
  rw [View.read_apply]
  show V c main_v4 _ = V c main_v4 _
  congr 1
  funext a; apply Fin.ext
  match a with
  | ⟨0, _⟩ => show win1_2.index t (0 : Fin 2) * 1024 + 1 * v.val = v.val; omega
  | ⟨1, _⟩ => show win1_2.index t (1 : Fin 2) * 1024 + 1 * o.val = o.val; omega

/-- Point `t`'s block of `x`: the same rows as its block of `Q`. -/
theorem blk3_at (c : Dev nD) (t : Fin cfg1.N) (r : Fin 512) (o : Fin 1024) (b : Fin 4) (s : Fin 4096)
    (hb : b.val = t.val / 8) (hs : s.val = 512 * (t.val % 8) + r.val) :
    (iblk1 V c 3 t : Vec Ideal S1x512x1024 .f32) (ix3 (0 : Fin 1) r o) = xArr V c (ix3 b s o) := by
  obtain ⟨-, -, -, -, -, -, -, -, e0, e1, e2, -⟩ := idx_facts1 t
  unfold iblk1
  rw [View.read_apply]
  show V c main_arg0 _ = V c main_arg0 _
  congr 1
  funext a; apply Fin.ext
  match a with
  | ⟨0, _⟩ => show win1_3.index t (0 : Fin 3) * 1 + 1 * 0 = b.val; omega
  | ⟨1, _⟩ => show win1_3.index t (1 : Fin 3) * 512 + 1 * r.val = s.val; omega
  | ⟨2, _⟩ => show win1_3.index t (2 : Fin 3) * 1024 + 1 * o.val = o.val; omega

/-- The result function read through point `t`'s output block: row `r` of the block is row `512·(t % 8) + r` of batch `t / 8`. -/
theorem blk4_at (c : Dev nD) (t : Fin cfg1.N) (r : Fin 512) (o : Fin 1024) (b : Fin 4) (s : Fin 4096)
    (hb : b.val = t.val / 8) (hs : s.val = 512 * (t.val % 8) + r.val) :
    ((cfg1.win 4).blk t).view.read (Elt Ideal) (G1 V c) (ix3 (0 : Fin 1) r o) = G1 V c (ix3 b s o) := by
  obtain ⟨-, -, -, -, -, -, -, -, -, -, -, e0, e1, e2⟩ := idx_facts1 t
  rw [View.read_apply]
  show G1 V c _ = G1 V c _
  congr 1
  funext a; apply Fin.ext
  match a with
  | ⟨0, _⟩ => show win1_4.index t (0 : Fin 3) * 1 + 1 * 0 = b.val; omega
  | ⟨1, _⟩ => show win1_4.index t (1 : Fin 3) * 512 + 1 * r.val = s.val; omega
  | ⟨2, _⟩ => show win1_4.index t (2 : Fin 3) * 1024 + 1 * o.val = o.val; omega

/-- What point `t` writes back is block `t` of the region's result function: each input block is its array read where
    the output's rows say, so the body's arithmetic on the blocks is the result function on those rows. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  unfold out1_4
  rw [View.canon_unit_zero hz3]
  simp only [View.ld_unit_zero (S := S1x512x1024) hz3, View.ld_unit_zero (S := S1x1024x1024) hz3, View.ld_unit_zero (S := S1024x1024) hz2]
  show k1_pay1 (iblk1 V c 0 t) (iblk1 V c 1 t) (iblk1 V c 2 t) (iblk1 V c 3 t) = _
  refine pay1_eq _ _ _ _ _ fun r o => ?_
  have ht : t.val < 32 := by have := t.isLt; have hN : cfg1.N = 32 := N_1; omega
  obtain ⟨b, hb⟩ : ∃ b : Fin 4, b.val = t.val / 8 := ⟨⟨t.val / 8, by omega⟩, rfl⟩
  obtain ⟨s, hs⟩ : ∃ s : Fin 4096, s.val = 512 * (t.val % 8) + r.val := ⟨⟨512 * (t.val % 8) + r.val, by omega⟩, rfl⟩
  refine (blk4_at V c t r o b s hb hs).trans ((G1_at V c b s o).trans ?_)
  refine congrArg₂ (· + ·) (blk3_at V c t r o b s hb hs).symm ?_
  refine Finset.sum_congr rfl fun v _ => ?_
  refine congrArg₂ (· * ·) ?_ (blk2_at V c t v o).symm
  refine Finset.sum_congr rfl fun k _ => ?_
  exact congrArg₂ (· * ·) (blk0_at V c t r k b s hb hs).symm (blk1_at V c t k v b hb).symm

/-- An index of the result array is in point `t`'s block iff each coordinate is in the block's range on its axis. -/
theorem mem_blk1 (t : Fin cfg1.N) (i : S4x4096x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v6).slice (win1_4.rect t)).set ↔ _
  rw [View.set_slice_whole, Rect.mem_set_unit]
  exact Iff.rfl

/-- Every index of the result array is in some point's block: row `s` of batch `b` is written by point `8·b + s / 512`. -/
theorem cover1 (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  have hN : cfg1.N = 32 := N_1
  obtain ⟨t, ht⟩ : ∃ t : Fin cfg1.N, t.val = 8 * (i 0).val + (i 1).val / 512 := ⟨⟨8 * (i 0).val + (i 1).val / 512, by omega⟩, rfl⟩
  obtain ⟨-, -, -, -, -, -, -, -, -, -, -, e0, e1, e2⟩ := idx_facts1 t
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

end

end Reg1Val

/-- The result array after the region: at batch `b`, row `s`, column `o` it holds `x + (Q·M_b)·P` there. -/
theorem val1 (V : (c : Dev nD) → (b : Ref sig .tc) → Buf (Elt Ideal) ((c : Thread nD τ).loc b)) (c : Dev nD) :
    (dat1 (F := Ideal) V c).arrAt 4 cfg1.N
      = fun i => Cert.Spec.region1 (Cert.Spec.act (V c main_arg0)) (Cert.Spec.act (V c main_v5_0)) (Cert.Spec.mats (V c main_v5_1)) (Cert.Spec.mat (V c main_v4)) (i 0) (i 1) (i 2) :=
  (dat1 (F := Ideal) V c).arrAt_eq_of_cover 4 (Reg1Val.G1 V c) (fun t _ => Reg1Val.flushed1_eq V c t) Reg1Val.cover1

end Cert.KernelIdeal.Hand

end
-- ==== Proof.KiValue.lean ====
/-
  The kernel's result array in closed form. Region 1's write-backs fold to `x + (Q·M_b)·P` of the arrays it was
  entered with; Q and the per-batch matrices M_b are region 0's two results, `x·Wq` and the eight tiles' sum of
  `Kᵀ·V`, of the arrays IT was entered with; and those are the arguments, converted in format only. So the run ends
  with the result array at the specification's kernel-side function of the five arguments.
-/
import proofs.«127309_j71511205478733_1_alg».proof.Proof.KiRun
import proofs.«127309_j71511205478733_1_alg».proof.Proof.KiHost
import proofs.«127309_j71511205478733_1_alg».proof.Proof.KiVal0
import proofs.«127309_j71511205478733_1_alg».proof.Proof.KiVal1
import proofs.«127309_j71511205478733_1_alg».proof.Proof.SpecParts

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The result: the specification's kernel-side function of the five argument arrays, index by index. -/
def result (c : Dev nD) : Buf (Elt Ideal) ((c.tc : Thread nD τ).loc main_v6) := fun i =>
  Cert.Spec.kernelOut (Cert.Spec.act (m ((c.tc : Thread nD τ).loc main_arg0))) (Cert.Spec.mat (m ((c.tc : Thread nD τ).loc main_arg1)))
    (Cert.Spec.mat (m ((c.tc : Thread nD τ).loc main_arg2))) (Cert.Spec.mat (m ((c.tc : Thread nD τ).loc main_arg3)))
    (Cert.Spec.mat (m ((c.tc : Thread nD τ).loc main_arg4))) (i 0) (i 1) (i 2)

/-- What region 1 is entered with, by coordinates. -/
theorem act_E2_x (c : Dev nD) : Cert.Spec.act (E2 m c main_arg0) = Cert.Spec.act (m ((c.tc : Thread nD τ).loc main_arg0)) := by
  rw [E2_main_arg0]
theorem mat_E2_p (c : Dev nD) : Cert.Spec.mat (E2 m c main_v4) = Cert.Spec.mat (m ((c.tc : Thread nD τ).loc main_arg4)) := by
  rw [E2_main_v4]; exact congrArg Cert.Spec.mat (V1_main_v4 m c)
theorem act_E2_q (c : Dev nD) : Cert.Spec.act (E2 m c main_v5_0)
    = Cert.Spec.proj (Cert.Spec.act (m ((c.tc : Thread nD τ).loc main_arg0))) (Cert.Spec.mat (m ((c.tc : Thread nD τ).loc main_arg1))) := by
  rw [E2_main_v5_0, val0_q (E1 m) c]
  funext b s k
  show Cert.Spec.proj (Cert.Spec.act (E1 m c main_v0)) (Cert.Spec.mat (E1 m c main_v1)) b s k = _
  rw [show Cert.Spec.act (E1 m c main_v0) = Cert.Spec.act (m ((c.tc : Thread nD τ).loc main_arg0)) from congrArg Cert.Spec.act (V1_main_v0 m c),
    show Cert.Spec.mat (E1 m c main_v1) = Cert.Spec.mat (m ((c.tc : Thread nD τ).loc main_arg1)) from congrArg Cert.Spec.mat (V1_main_v1 m c)]
theorem mats_E2_m (c : Dev nD) : Cert.Spec.mats (E2 m c main_v5_1)
    = fun b => Cert.Spec.accKV (Cert.Spec.proj (Cert.Spec.act (m ((c.tc : Thread nD τ).loc main_arg0))) (Cert.Spec.mat (m ((c.tc : Thread nD τ).loc main_arg2))))
        (Cert.Spec.proj (Cert.Spec.act (m ((c.tc : Thread nD τ).loc main_arg0))) (Cert.Spec.mat (m ((c.tc : Thread nD τ).loc main_arg3)))) b 7 := by
  rw [E2_main_v5_1, val0_m (E1 m) c]
  funext b k v
  show Cert.Spec.accKV (Cert.Spec.proj (Cert.Spec.act (E1 m c main_v0)) (Cert.Spec.mat (E1 m c main_v2))) (Cert.Spec.proj (Cert.Spec.act (E1 m c main_v0)) (Cert.Spec.mat (E1 m c main_v3))) b 7 k v = _
  rw [show Cert.Spec.act (E1 m c main_v0) = Cert.Spec.act (m ((c.tc : Thread nD τ).loc main_arg0)) from congrArg Cert.Spec.act (V1_main_v0 m c),
    show Cert.Spec.mat (E1 m c main_v2) = Cert.Spec.mat (m ((c.tc : Thread nD τ).loc main_arg2)) from congrArg Cert.Spec.mat (V1_main_v2 m c),
    show Cert.Spec.mat (E1 m c main_v3) = Cert.Spec.mat (m ((c.tc : Thread nD τ).loc main_arg3)) from congrArg Cert.Spec.mat (V1_main_v3 m c)]

/-- Region 1's output array after the run is the result. -/
theorem kernel_value (c : Dev nD) : (dat1 (F := Ideal) (E2 m) c).arrAt 4 cfg1.N = result m c := by
  rw [val1 (E2 m) c]
  funext i
  unfold result
  rw [Cert.Spec.kernelOut_eq_region1, act_E2_x, act_E2_q, mats_E2_m, mat_E2_p]

/-- THE KERNEL'S RUN, with the result named. -/
theorem run_result (ρ : Dev nD → PrngReg) : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (kernel_value m c), (h c).2⟩) (run_value m ρ)

end Cert.KernelIdeal.Hand

end
-- ==== Proof.RefValue.lean ====
/-
  The reference program's output, read at the coordinates (b, s, o), is the specification's reference value:
  the three projections x·Wq, x·Wk, x·Wv, the score contraction over the key axis, the contraction of the
  scores with V over the sequence axis, the projection by P, and the residual x added in front.
-/
import proofs.«127309_j71511205478733_1_alg».proof.Proof.Gen.ReferenceIdeal.Read
import proofs.«127309_j71511205478733_1_alg».proof.Proof.SpecIdx
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Read Cert.Spec

/-! ## The index maps of the seven operations at explicit coordinates -/

/-- A projection's left operand at (b, s, ·): row (b, s), column d of the activation. -/
theorem lidx0 (b : Fin 4) (s : Fin 4096) (c d : Fin 1024) : lidx_main_v0 (ix3 b s c) d = ix3 b s d :=
  funext fun a => Fin.ext (by match a with | ⟨0, _⟩ => rfl | ⟨1, _⟩ => rfl | ⟨2, _⟩ => rfl)
/-- A projection's right operand: row d, column c of the weight matrix. -/
theorem ridx0 (b : Fin 4) (s : Fin 4096) (c d : Fin 1024) : ridx_main_v0 (ix3 b s c) d = ix2 d c :=
  funext fun a => Fin.ext (by match a with | ⟨0, _⟩ => rfl | ⟨1, _⟩ => rfl)
theorem lidx1 (b : Fin 4) (s : Fin 4096) (c d : Fin 1024) : lidx_main_v1 (ix3 b s c) d = ix3 b s d :=
  funext fun a => Fin.ext (by match a with | ⟨0, _⟩ => rfl | ⟨1, _⟩ => rfl | ⟨2, _⟩ => rfl)
theorem ridx1 (b : Fin 4) (s : Fin 4096) (c d : Fin 1024) : ridx_main_v1 (ix3 b s c) d = ix2 d c :=
  funext fun a => Fin.ext (by match a with | ⟨0, _⟩ => rfl | ⟨1, _⟩ => rfl)
theorem lidx2 (b : Fin 4) (s : Fin 4096) (c d : Fin 1024) : lidx_main_v2 (ix3 b s c) d = ix3 b s d :=
  funext fun a => Fin.ext (by match a with | ⟨0, _⟩ => rfl | ⟨1, _⟩ => rfl | ⟨2, _⟩ => rfl)
theorem ridx2 (b : Fin 4) (s : Fin 4096) (c d : Fin 1024) : ridx_main_v2 (ix3 b s c) d = ix2 d c :=
  funext fun a => Fin.ext (by match a with | ⟨0, _⟩ => rfl | ⟨1, _⟩ => rfl)
/-- The scores at (b, s, t) contract the key axis: Q at (b, s, k) against K at (b, t, k). -/
theorem lidx3 (b : Fin 4) (s t : Fin 4096) (k : Fin 1024) : lidx_main_v3 (ix3 b s t) k = ix3 b s k :=
  funext fun a => Fin.ext (by match a with | ⟨0, _⟩ => rfl | ⟨1, _⟩ => rfl | ⟨2, _⟩ => rfl)
theorem ridx3 (b : Fin 4) (s t : Fin 4096) (k : Fin 1024) : ridx_main_v3 (ix3 b s t) k = ix3 b t k :=
  funext fun a => Fin.ext (by match a with | ⟨0, _⟩ => rfl | ⟨1, _⟩ => rfl | ⟨2, _⟩ => rfl)
/-- The scores times V at (b, s, v) contract the sequence axis: scores at (b, s, t) against V at (b, t, v). -/
theorem lidx4 (b : Fin 4) (s t : Fin 4096) (v : Fin 1024) : lidx_main_v4 (ix3 b s v) t = ix3 b s t :=
  funext fun a => Fin.ext (by match a with | ⟨0, _⟩ => rfl | ⟨1, _⟩ => rfl | ⟨2, _⟩ => rfl)
theorem ridx4 (b : Fin 4) (s t : Fin 4096) (v : Fin 1024) : ridx_main_v4 (ix3 b s v) t = ix3 b t v :=
  funext fun a => Fin.ext (by match a with | ⟨0, _⟩ => rfl | ⟨1, _⟩ => rfl | ⟨2, _⟩ => rfl)
theorem lidx5 (b : Fin 4) (s : Fin 4096) (c d : Fin 1024) : lidx_main_v5 (ix3 b s c) d = ix3 b s d :=
  funext fun a => Fin.ext (by match a with | ⟨0, _⟩ => rfl | ⟨1, _⟩ => rfl | ⟨2, _⟩ => rfl)
theorem ridx5 (b : Fin 4) (s : Fin 4096) (c d : Fin 1024) : ridx_main_v5 (ix3 b s c) d = ix2 d c :=
  funext fun a => Fin.ext (by match a with | ⟨0, _⟩ => rfl | ⟨1, _⟩ => rfl)

/-! ## The three projections -/

/-- The first product is the projection of x by Wq. -/
theorem v0_apply (x0 : (⟨3, ![4, 4096, 1024]⟩ : Shape).Idx → EReal) (x1 : (⟨2, ![1024, 1024]⟩ : Shape).Idx → EReal)
    (b : Fin 4) (s : Fin 4096) (k : Fin 1024) :
    val_main_v0 (F := Ideal) x0 x1 (ix3 b s k) = proj (act x0) (mat x1) b s k := by
  rw [val_main_v0_apply]
  refine Finset.sum_congr rfl fun d _ => ?_
  rw [lidx0, ridx0]
  rfl
/-- The second is the projection by Wk. -/
theorem v1_apply (x0 : (⟨3, ![4, 4096, 1024]⟩ : Shape).Idx → EReal) (x2 : (⟨2, ![1024, 1024]⟩ : Shape).Idx → EReal)
    (b : Fin 4) (s : Fin 4096) (k : Fin 1024) :
    val_main_v1 (F := Ideal) x0 x2 (ix3 b s k) = proj (act x0) (mat x2) b s k := by
  rw [val_main_v1_apply]
  refine Finset.sum_congr rfl fun d _ => ?_
  rw [lidx1, ridx1]
  rfl
/-- The third is the projection by Wv. -/
theorem v2_apply (x0 : (⟨3, ![4, 4096, 1024]⟩ : Shape).Idx → EReal) (x3 : (⟨2, ![1024, 1024]⟩ : Shape).Idx → EReal)
    (b : Fin 4) (s : Fin 4096) (k : Fin 1024) :
    val_main_v2 (F := Ideal) x0 x3 (ix3 b s k) = proj (act x0) (mat x3) b s k := by
  rw [val_main_v2_apply]
  refine Finset.sum_congr rfl fun d _ => ?_
  rw [lidx2, ridx2]
  rfl

/-! ## The reference's output at (b, s, o) -/

/-- The whole chain: x + ((Q·Kᵀ)·V)·P at (b, s, o), every contraction over the axis the specification names. -/
theorem ref_apply (x0 : (⟨3, ![4, 4096, 1024]⟩ : Shape).Idx → EReal) (x1 x2 x3 x4 : (⟨2, ![1024, 1024]⟩ : Shape).Idx → EReal)
    (b : Fin 4) (s : Fin 4096) (o : Fin 1024) :
    val_main_v6 (F := Ideal) x0 x1 x2 x3 x4 (ix3 b s o)
      = refOut (act x0) (mat x1) (mat x2) (mat x3) (mat x4) b s o := by
  rw [val_main_v6_apply, val_main_v5_apply]
  unfold refOut
  refine congrArg (fun z => x0 (ix3 b s o) + z) ?_
  refine Finset.sum_congr rfl fun v _ => ?_
  rw [lidx5, ridx5, val_main_v4_apply]
  refine congrArg (fun z => z * x4 (ix2 v o)) ?_
  refine Finset.sum_congr rfl fun t _ => ?_
  rw [lidx4, ridx4, val_main_v3_apply, v2_apply]
  refine congrArg (fun z => z * proj (act x0) (mat x3) b t v) ?_
  refine Finset.sum_congr rfl fun k _ => ?_
  rw [lidx3, ridx3, v0_apply, v1_apply]

/-- The same as an equation of arrays: the output at an index is the specification at the index's coordinates. -/
theorem ref_eq (x0 : (⟨3, ![4, 4096, 1024]⟩ : Shape).Idx → EReal) (x1 x2 x3 x4 : (⟨2, ![1024, 1024]⟩ : Shape).Idx → EReal) :
    val_main_v6 (F := Ideal) x0 x1 x2 x3 x4
      = fun i => refOut (act x0) (mat x1) (mat x2) (mat x3) (mat x4) (i 0) (i 1) (i 2) := by
  funext i
  rw [eq_ix3 i]
  exact ref_apply x0 x1 x2 x3 x4 (i 0) (i 1) (i 2)

end Cert.RefValue

end
-- ==== Proof.SpecLaw.lean ====
/-
  The kernel's grouping `Q·(Kᵀ·V)` and the reference's grouping `(Q·Kᵀ)·V` agree when every entry is real.

  Two facts, kept apart.
  * Over any commutative additive monoid (so over the extended reals, with no finiteness needed), adding the eight
    tiles of 512 rows one after the other, starting from zero, is the sum over all 4096 rows of the sequence axis:
    the pair (tile, row in tile) ↦ 512·tile + row is a bijection of `Fin 8 × Fin 512` with `Fin 4096`.
  * Over the reals, `Σ_k q k · (Σ_t K t k · V t) = Σ_t (Σ_k q k · K t k) · V t` (distribute, swap the two sums,
    re-associate each term). On the extended reals this needs the entries finite: the projections `Q`, `K`, `V` of a
    finite activation by a finite weight matrix are coercions of real numbers, coercion commutes with finite sums and
    with products, and so the identity transports from the reals.
  The final projection by `P` and the residual `x` are the same outer expression on both sides; finiteness of `P` is
  not needed.
-/
import proofs.«127309_j71511205478733_1_alg».proof.Proof.Spec
import Mathlib.Data.EReal.Basic
import Mathlib.Algebra.BigOperators.Fin
import Mathlib.Algebra.BigOperators.Ring.Finset
import Mathlib.Data.Fintype.BigOperators
import Mathlib.Logic.Equiv.Fin.Basic

noncomputable section

open scoped BigOperators

namespace Cert.Spec

/-! ### Coercion of real numbers into the extended reals commutes with finite sums -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The eight tiles cover the sequence axis exactly once -/

/-- For a tile index below 8 the reduction modulo 4096 in `tileRow` does nothing. -/
theorem tileRow_val (j : ℕ) (hj : j < 8) (r : Fin 512) : (tileRow j r).val = 512 * j + r.val := by
  have hr := r.isLt
  show (512 * j + r.val) % 4096 = 512 * j + r.val
  exact Nat.mod_eq_of_lt (by omega)

/-- Summing a function of the row over tiles `0, …, 7` and over the 512 rows of each tile is summing it over all
4096 rows: (tile, row) ↦ 512·tile + row is the standard bijection `Fin 8 × Fin 512 ≃ Fin 4096`. -/
theorem sum_tiles {M : Type*} [AddCommMonoid M] (g : Fin 4096 → M) :
    ∑ j ∈ Finset.range 8, ∑ r : Fin 512, g (tileRow j r) = ∑ t : Fin 4096, g t := by
  have e : Fin 8 × Fin 512 ≃ Fin 4096 := finProdFinEquiv
  calc ∑ j ∈ Finset.range 8, ∑ r : Fin 512, g (tileRow j r)
      = ∑ j : Fin 8, ∑ r : Fin 512, g (tileRow j.val r) :=
        Finset.sum_range (fun j => ∑ r : Fin 512, g (tileRow j r))
    _ = ∑ p : Fin 8 × Fin 512, g (tileRow p.1.val p.2) :=
        (Fintype.sum_prod_type (fun p : Fin 8 × Fin 512 => g (tileRow p.1.val p.2))).symm
    _ = ∑ t : Fin 4096, g t := by
        refine Fintype.sum_equiv (finProdFinEquiv : Fin 8 × Fin 512 ≃ Fin 4096) _ _ (fun p => ?_)
        refine congrArg g (Fin.ext ?_)
        rw [tileRow_val p.1.val p.1.isLt p.2]
        show 512 * p.1.val + p.2.val = p.2.val + 512 * p.1.val
        omega

/-- The accumulator after tile `n` is the sum of tiles `0, …, n` (the leading zero is absorbed). -/
theorem accKV_eq_sum_range (K V : Act) (b : Fin 4) (n : ℕ) (k v : Fin 1024) :
    accKV K V b n k v = ∑ j ∈ Finset.range (n + 1), tileKV K V b j k v := by
  induction n with
  | zero => simp [accKV]
  | succ n ih => rw [Finset.sum_range_succ, ← ih]; rfl

/-- After the eighth tile the accumulator holds `Kᵀ·V` contracted over the whole sequence axis. -/
theorem accKV_seven (K V : Act) (b : Fin 4) (k v : Fin 1024) :
    accKV K V b 7 k v = ∑ t : Fin 4096, K b t k * V b t v := by
  rw [accKV_eq_sum_range]
  exact sum_tiles (fun t => K b t k * V b t v)

/-! ### Associativity of the triple product, over the reals and then over finite extended reals -/

/-- `Σ_k q k · (Σ_t K t k · V t) = Σ_t (Σ_k q k · K t k) · V t` over the reals. -/
theorem real_assoc {κ τ : Type*} [Fintype κ] [Fintype τ] (q : κ → ℝ) (Km : τ → κ → ℝ) (Vm : τ → ℝ) :
    ∑ k, q k * ∑ t, Km t k * Vm t = ∑ t, (∑ k, q k * Km t k) * Vm t := by
  simp only [Finset.mul_sum, Finset.sum_mul]
  rw [Finset.sum_comm]
  exact Finset.sum_congr rfl fun t _ => Finset.sum_congr rfl fun k _ => (mul_assoc _ _ _).symm

/-- The same identity for extended reals that are coercions of real numbers. -/
theorem ereal_assoc {κ τ : Type*} [Fintype κ] [Fintype τ] (q : κ → ℝ) (Km : τ → κ → ℝ) (Vm : τ → ℝ) :
    ∑ k, (q k : EReal) * ∑ t, (Km t k : EReal) * (Vm t : EReal)
      = ∑ t, (∑ k, (q k : EReal) * (Km t k : EReal)) * (Vm t : EReal) := by
  have h := congrArg (fun r : ℝ => (r : EReal)) (real_assoc q Km Vm)
  simpa only [coe_sum, EReal.coe_mul] using h

/-- The projection of a finite activation by a finite weight matrix is entrywise the coercion of a real number. -/
theorem proj_finite (x : Act) (W : Mat) (hx : FiniteAct x) (hW : FiniteMat W) :
    ∃ Qr : Fin 4 → Fin 4096 → Fin 1024 → ℝ, proj x W = fun b s k => ((Qr b s k : ℝ) : EReal) := by
  refine ⟨fun b s k => ∑ d : Fin 1024, (x b s d).toReal * (W d k).toReal, ?_⟩
  funext b s k
  show ∑ d : Fin 1024, x b s d * W d k = _
  rw [coe_sum]
  refine Finset.sum_congr rfl fun d _ => ?_
  rw [EReal.coe_mul, EReal.coe_toReal (hx b s d).1 (hx b s d).2, EReal.coe_toReal (hW d k).1 (hW d k).2]

/-! ### The two programs compute the same array -/

theorem kernelOut_eq_refOut (x : Act) (Wq Wk Wv P : Mat) (hx : FiniteAct x) (hq : FiniteMat Wq)
    (hk : FiniteMat Wk) (hv : FiniteMat Wv) (hp : FiniteMat P) :
    kernelOut x Wq Wk Wv P = refOut x Wq Wk Wv P := by
  obtain ⟨Qr, hQ⟩ := proj_finite x Wq hx hq
  obtain ⟨Kr, hK⟩ := proj_finite x Wk hx hk
  obtain ⟨Vr, hV⟩ := proj_finite x Wv hx hv
  funext b s o
  unfold kernelOut refOut
  rw [hQ, hK, hV]
  refine congrArg (fun z => x b s o + z) ?_
  refine Finset.sum_congr rfl fun v _ => ?_
  refine congrArg (fun z => z * P v o) ?_
  simp only [accKV_seven]
  exact ereal_assoc (fun k => Qr b s k) (fun t k => Kr b t k) (fun t => Vr b t v)

end Cert.Spec

end
-- ==== Proof.Finite.lean ====
/-
  Finiteness of the inputs, read off the printed precondition.

  The precondition is the conjunction, over the five inputs, of "every entry has absolute value strictly below +∞".
  On the extended reals the absolute value of `x` is `max x (-x)`, and `max x (-x) < ⊤` holds exactly when `x` is
  neither `⊤` nor `⊥` (since `-⊥ = ⊤`). So each conjunct says that every entry of its array is a real number.
-/
import proofs.«127309_j71511205478733_1_alg».proof.Pre_finite_inputs
import proofs.«127309_j71511205478733_1_alg».proof.Proof.Gen.Pre_finite_inputs
import proofs.«127309_j71511205478733_1_alg».proof.Proof.SpecIdx
import Idealize.ShloMosaic.Lib.ReduceAll
import Idealize.ShloMosaic.Lib.ValueIdx

noncomputable section

namespace Cert.Finite

open Idealize.ShloMosaic Idealize.ShloMosaic.ValueIdx

/-- An extended real whose absolute value `max x (-x)` is strictly below `⊤` is neither infinity. -/
theorem ne_top_bot_of_abs_lt_top (x : EReal) (h : max x (-x) < ⊤) : x ≠ ⊤ ∧ x ≠ ⊥ := by
  rw [max_lt_iff] at h
  refine ⟨ne_top_of_lt h.1, ?_⟩
  rintro rfl
  simp at h

/-- The binary32 word with all exponent bits set, sign and fraction clear, denotes `⊤`. -/
theorem inf_word : Ideal.ofBits .f32 0x7F800000#32 = ⊤ := by simp [Ideal.ofBits, Ideal.ieee]

/-- The comparison "strictly less" answering 1 says the strict inequality. -/
theorem lt_of_cmp_olt (x y : EReal) (h : Ideal.cmp .olt x y = 1#1) : x < y := by
  unfold Ideal.cmp at h
  by_contra hn
  simp [hn] at h

/-- The shape of rank 0 has one index. -/
instance : Subsingleton Cert.Pre_finite_inputs.S_.Idx := ⟨fun _ _ => funext fun d => d.elim0⟩

/-- One conjunct of the precondition, at any shape: if "all entries of `|a|` are below +∞" came out 1, then every
    entry of `a` is a real number. -/
theorem entry_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1)
    (i : s.Idx) : a i ≠ ⊤ ∧ a i ≠ ⊥ := by
  have h1 := Host.reduce_andi_all _ _ hr hu ix0 e i
  have h2 : Ideal.cmp .olt (max (a i) (-(a i))) (Ideal.ofBits .f32 0x7F800000#32) = 1#1 := h1
  rw [inf_word] at h2
  exact ne_top_bot_of_abs_lt_top _ (lt_of_cmp_olt _ _ h2)

/-- The precondition holding says all five inputs have only real entries: the conjunction is split, each conjunct is
    "all entries of `|a|` are below +∞", and that is read entry by entry. -/
theorem of_pre [Cert.Pre_finite_inputs.Facts] (a0 : FVec Ideal Cert.Pre_finite_inputs.S4x4096x1024 .f32)
    (a1 a2 a3 a4 : FVec Ideal Cert.Pre_finite_inputs.S1024x1024 .f32)
    (h : Cert.Pre_finite_inputs.fn (F := Ideal) a0 a1 a2 a3 a4 = fun _ => 1#1) :
    Cert.Spec.FiniteAct (Cert.Spec.act a0) ∧ Cert.Spec.FiniteMat (Cert.Spec.mat a1) ∧ Cert.Spec.FiniteMat (Cert.Spec.mat a2)
      ∧ Cert.Spec.FiniteMat (Cert.Spec.mat a3) ∧ Cert.Spec.FiniteMat (Cert.Spec.mat a4) := by
  have h0 := congrFun h ix0
  dsimp only [Cert.Pre_finite_inputs.fn, Cert.Pre_finite_inputs.fn_part1] at h0
  simp only [andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun b s d => entry_finite a0 _ _ _ e0 (ix3 b s d), fun d k => entry_finite a1 _ _ _ e1 (ix2 d k),
    fun d k => entry_finite a2 _ _ _ e2 (ix2 d k), fun d k => entry_finite a3 _ _ _ e3 (ix2 d k),
    fun d k => entry_finite a4 _ _ _ e4 (ix2 d k)⟩

end Cert.Finite

end
-- ==== Proof.lean ====
/-
  The certificate's claims, assembled.

  Both programs compute `x + ((x·Wq)·(x·Wk)ᵀ·(x·Wv))·P` over a batch of four sequences of 4096 rows of width 1024.
  The reference multiplies in the written order, forming the `[4096, 4096]` score matrix per batch. The kernel
  re-associates: a first region projects a tile of 512 rows to Q, K and V, writes the Q tile out and adds `Kᵀ·V` of the
  tile into a `[1024, 1024]` accumulator kept between the grid points of one batch (reset at the batch's first tile,
  written out at its last); a second region multiplies each Q tile by its batch's summed matrix, then by `P`, and
  adds the x tile. Over the extended reals a change of float format is the identity and each matrix unit product into
  a zero accumulator is the plain sum, so the kernel's result is `x + (Q·Σ_tiles Kᵀ·V)·P` and the reference's is
  `x + ((Q·Kᵀ)·V)·P`; they are equal because every input entry is a real number (the precondition), where matrix
  multiplication is associative and a sum over 4096 rows is the sum of its eight tiles' sums. With an infinite entry the
  distributive law this uses fails, so the precondition is used, not decoration.

  The three frames: each kernel program's run is two pipelined regions behind five host conversions, launched once;
  the reference's is its list of seven host operations. Nothing was rewritten by the idealization, so `preserves` is
  trivial.
-/
import proofs.«127309_j71511205478733_1_alg».proof.Defs
import proofs.«127309_j71511205478733_1_alg».proof.Proof.Gen.Kernel
import proofs.«127309_j71511205478733_1_alg».proof.Proof.Gen.KernelIdeal
import proofs.«127309_j71511205478733_1_alg».proof.Proof.Gen.ReferenceIdeal
import proofs.«127309_j71511205478733_1_alg».proof.Proof.Gen.Pre_finite_inputs
import proofs.«127309_j71511205478733_1_alg».proof.Proof.Gen.ReferenceIdeal.Run
import proofs.«127309_j71511205478733_1_alg».proof.Proof.Gen.ReferenceIdeal.Read
import proofs.«127309_j71511205478733_1_alg».proof.Proof.KbRun
import proofs.«127309_j71511205478733_1_alg».proof.Proof.KiValue
import proofs.«127309_j71511205478733_1_alg».proof.Proof.RefValue
import proofs.«127309_j71511205478733_1_alg».proof.Proof.SpecLaw
import proofs.«127309_j71511205478733_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both runs end with the result array at the kernel's closed form of the
    arguments: the kernel's by its two regions' write-backs folded, the reference's by its seven operations read at an
    index and the associativity law, which holds because the precondition makes every entry real. -/
theorem algebraic : Cert.algebraic_KernelIdeal_ReferenceIdeal := by
  intro m ρ m' ρ' hpre hagree
  refine ⟨fun c => Cert.KernelIdeal.Hand.result m c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefValue.ref_eq, (hagree c).1, (hagree c).2.1, (hagree c).2.2.1,
    (hagree c).2.2.2.1, (hagree c).2.2.2.2]
  obtain ⟨h0, h1, h2, h3, h4⟩ := Cert.Finite.of_pre _ _ _ _ _ (hpre c)
  funext i
  exact (congrFun (congrFun (congrFun (Cert.Spec.kernelOut_eq_refOut _ _ _ _ _ h0 h1 h2 h3 h4) (i 0)) (i 1)) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
